-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x17x128x128 : Shape := ⟨5, ![16, 8, 17, 128, 128]⟩
abbrev S16x8x10x17x2 : Shape := ⟨5, ![16, 8, 10, 17, 2]⟩
abbrev S_ : Shape := ⟨0, ![]⟩

class Facts : Prop where
  bcast_S_S16x8x17x128x128 : S_.BroadcastsInDim S16x8x17x128x128 (![] : Fin 0 → Fin S16x8x17x128x128.rank)
  reducesTo_S16x8x17x128x128_S_d0_1_2_3_4 : S16x8x17x128x128.ReducesTo [0, 1, 2, 3, 4] S_
  h_S_ : 0 < S_.numel
  bcast_S_S16x8x10x17x2 : S_.BroadcastsInDim S16x8x10x17x2 (![] : Fin 0 → Fin S16x8x10x17x2.rank)
  reducesTo_S16x8x10x17x2_S_d0_1_2_3_4 : S16x8x10x17x2.ReducesTo [0, 1, 2, 3, 4] S_

variable [Facts]

def fn {F : FTy → Type} [FloatOps F] (main_arg0 : FVec F S16x8x17x128x128 .f32) (main_arg1 : FVec F S16x8x10x17x2 .f32) : IVec S_ 1 :=
  let main_v0 : FVec F S16x8x17x128x128 .f32 := Host.absf main_arg0
  let main_cst : FVec F S_ .f32 := constant S_ .f32 0x7F800000#32
  let main_v1 : FVec F S16x8x17x128x128 .f32 := broadcastInDim S16x8x17x128x128 ![] bcast_S_S16x8x17x128x128 main_cst
  let main_v2 : IVec S16x8x17x128x128 1 := cmpf .olt main_v0 main_v1
  let main_c : IVec S_ 1 := constantI S_ 1 1#1
  let main_v3 : IVec S_ 1 := (fun x v => Host.reduce IntOp.andi x v reducesTo_S16x8x17x128x128_S_d0_1_2_3_4 h_S_) main_v2 main_c
  let main_v4 : FVec F S16x8x10x17x2 .f32 := Host.absf main_arg1
  let main_cst_0 : FVec F S_ .f32 := constant S_ .f32 0x7F800000#32
  let main_v5 : FVec F S16x8x10x17x2 .f32 := broadcastInDim S16x8x10x17x2 ![] bcast_S_S16x8x10x17x2 main_cst_0
  let main_v6 : IVec S16x8x10x17x2 1 := cmpf .olt main_v4 main_v5
  let main_c_1 : IVec S_ 1 := constantI S_ 1 1#1
  let main_v7 : IVec S_ 1 := (fun x v => Host.reduce IntOp.andi x v reducesTo_S16x8x10x17x2_S_d0_1_2_3_4 h_S_) main_v6 main_c_1
  let main_v8 : IVec S_ 1 := andi main_v3 main_v7
  main_v8
-- ==== Kernel.lean ====
abbrev S16x8x17x128x128 : Shape := ⟨5, ![16, 8, 17, 128, 128]⟩
abbrev S16x8x10x17x2 : Shape := ⟨5, ![16, 8, 10, 17, 2]⟩
abbrev S128x17x128x128 : Shape := ⟨4, ![128, 17, 128, 128]⟩
abbrev S128x10x17x2 : Shape := ⟨4, ![128, 10, 17, 2]⟩
abbrev S_ : Shape := ⟨0, ![]⟩
abbrev S128x10x17x1 : Shape := ⟨4, ![128, 10, 17, 1]⟩
abbrev S128x10x17 : Shape := ⟨3, ![128, 10, 17]⟩
abbrev S128x17x10 : Shape := ⟨3, ![128, 17, 10]⟩
abbrev S8x17x128x128 : Shape := ⟨4, ![8, 17, 128, 128]⟩
abbrev S8x17x10 : Shape := ⟨3, ![8, 17, 10]⟩
abbrev S136x128x128 : Shape := ⟨3, ![136, 128, 128]⟩
abbrev S136x10 : Shape := ⟨2, ![136, 10]⟩
abbrev S136x10x128 : Shape := ⟨3, ![136, 10, 128]⟩
abbrev S136x10x1 : Shape := ⟨3, ![136, 10, 1]⟩
abbrev S128x10 : Shape := ⟨2, ![128, 10]⟩
abbrev S128x10x1 : Shape := ⟨3, ![128, 10, 1]⟩
abbrev S128 : Shape := ⟨1, ![128]⟩
abbrev S128x1x10 : Shape := ⟨3, ![128, 1, 10]⟩
abbrev S128x10x10 : Shape := ⟨3, ![128, 10, 10]⟩
abbrev S10x10 : Shape := ⟨2, ![10, 10]⟩
abbrev S1x10x10 : Shape := ⟨3, ![1, 10, 10]⟩

abbrev nBuf : Space → Nat
  | .hbm => 142
  | .vmem => 8
  | .smem => 0
  | _ => 0

abbrev hbmTy0_0 (i : Nat) : BufTy := match i % 128 with
  | 0 => ⟨S16x8x17x128x128, .f32⟩
  | 1 => ⟨S16x8x10x17x2, .f32⟩
  | 2 => ⟨S128x17x128x128, .f32⟩
  | 3 => ⟨S128x10x17x2, .f32⟩
  | 4 => ⟨S_, .f32⟩
  | 5 => ⟨S128x10x17x2, .f32⟩
  | 6 => ⟨S128x10x17x2, .f32⟩
  | 7 => ⟨S128x10x17x2, .f32⟩
  | 8 => ⟨S128x10x17x2, .i32⟩
  | 9 => ⟨S128x10x17x1, .i32⟩
  | 10 => ⟨S128x10x17, .i32⟩
  | 11 => ⟨S128x10x17x1, .i32⟩
  | 12 => ⟨S128x10x17, .i32⟩
  | 13 => ⟨S_, .i32⟩
  | 14 => ⟨S128x10x17, .i32⟩
  | 15 => ⟨S128x10x17, .i1⟩
  | 16 => ⟨S_, .i32⟩
  | 17 => ⟨S128x10x17, .i32⟩
  | 18 => ⟨S128x10x17, .i1⟩
  | 19 => ⟨S128x10x17, .i1⟩
  | 20 => ⟨S_, .i32⟩
  | 21 => ⟨S128x10x17, .i32⟩
  | 22 => ⟨S128x10x17, .i1⟩
  | 23 => ⟨S128x10x17, .i1⟩
  | 24 => ⟨S_, .i32⟩
  | 25 => ⟨S128x10x17, .i32⟩
  | 26 => ⟨S128x10x17, .i1⟩
  | 27 => ⟨S128x10x17, .i1⟩
  | 28 => ⟨S_, .i32⟩
  | 29 => ⟨S_, .i32⟩
  | 30 => ⟨S_, .i32⟩
  | 31 => ⟨S128x10x17, .i32⟩
  | 32 => ⟨S128x10x17, .i32⟩
  | 33 => ⟨S_, .i32⟩
  | 34 => ⟨S128x10x17, .i32⟩
  | 35 => ⟨S128x10x17, .i32⟩
  | 36 => ⟨S_, .i32⟩
  | 37 => ⟨S_, .i32⟩
  | 38 => ⟨S_, .i32⟩
  | 39 => ⟨S128x10x17, .i32⟩
  | 40 => ⟨S128x10x17, .i32⟩
  | 41 => ⟨S_, .i32⟩
  | 42 => ⟨S128x10x17, .i32⟩
  | 43 => ⟨S128x10x17, .i32⟩
  | 44 => ⟨S128x17x10, .i32⟩
  | 45 => ⟨S128x17x10, .i32⟩
  | 46 => ⟨S128x17x10, .f32⟩
  | 47 => ⟨S128x10x17, .f32⟩
  | 48 => ⟨S128x10x17, .f32⟩
  | 49 => ⟨S_, .f32⟩
  | 50 => ⟨S128x10, .f32⟩
  | 51 => ⟨S_, .f32⟩
  | 52 => ⟨S128x10, .f32⟩
  | 53 => ⟨S128x10, .f32⟩
  | 54 => ⟨S128x10x17, .f32⟩
  | 55 => ⟨S_, .f32⟩
  | 56 => ⟨S128x10, .f32⟩
  | 57 => ⟨S128x10, .f32⟩
  | 58 => ⟨S128x10x1, .f32⟩
  | 59 => ⟨S128x10x17, .f32⟩
  | 60 => ⟨S128x10x17, .f32⟩
  | 61 => ⟨S128x10x17, .f32⟩
  | 62 => ⟨S128x10x17, .f32⟩
  | 63 => ⟨S_, .f32⟩
  | 64 => ⟨S128x10, .f32⟩
  | 65 => ⟨S128x10, .f32⟩
  | 66 => ⟨S_, .f32⟩
  | 67 => ⟨S128x10, .f32⟩
  | 68 => ⟨S128x10, .i1⟩
  | 69 => ⟨S_, .f32⟩
  | 70 => ⟨S_, .f32⟩
  | 71 => ⟨S128x10, .f32⟩
  | 72 => ⟨S128x10, .f32⟩
  | 73 => ⟨S_, .f32⟩
  | 74 => ⟨S128, .f32⟩
  | 75 => ⟨S_, .f32⟩
  | 76 => ⟨S128, .f32⟩
  | 77 => ⟨S128, .f32⟩
  | 78 => ⟨S_, .f32⟩
  | 79 => ⟨S128x10, .f32⟩
  | 80 => ⟨S128x10, .i1⟩
  | 81 => ⟨S128x10, .f32⟩
  | 82 => ⟨S128x1x10, .f32⟩
  | 83 => ⟨S128x10x1, .f32⟩
  | 84 => ⟨S128x10x10, .f32⟩
  | 85 => ⟨S128x10x10, .f32⟩
  | 86 => ⟨S128x10x10, .f32⟩
  | 87 => ⟨S128x10x1, .f32⟩
  | 88 => ⟨S128x1x10, .f32⟩
  | 89 => ⟨S128x10x10, .f32⟩
  | 90 => ⟨S128x10x10, .f32⟩
  | 91 => ⟨S128x10x10, .f32⟩
  | 92 => ⟨S10x10, .i32⟩
  | 93 => ⟨S10x10, .i32⟩
  | 94 => ⟨S_, .i32⟩
  | 95 => ⟨S10x10, .i32⟩
  | 96 => ⟨S10x10, .i32⟩
  | 97 => ⟨S10x10, .i1⟩
  | 98 => ⟨S10x10, .f32⟩
  | 99 => ⟨S_, .f32⟩
  | 100 => ⟨S10x10, .f32⟩
  | 101 => ⟨S10x10, .f32⟩
  | 102 => ⟨S1x10x10, .f32⟩
  | 103 => ⟨S128x10x10, .f32⟩
  | 104 => ⟨S128x10x10, .f32⟩
  | 105 => ⟨S128x10x10, .f32⟩
  | 106 => ⟨S_, .f32⟩
  | 107 => ⟨S128x10x10, .f32⟩
  | 108 => ⟨S128x10x10, .f32⟩
  | 109 => ⟨S_, .f32⟩
  | 110 => ⟨S128x10x10, .f32⟩
  | 111 => ⟨S128x10x10, .f32⟩
  | 112 => ⟨S128x10x10, .f32⟩
  | 113 => ⟨S_, .f32⟩
  | 114 => ⟨S128, .f32⟩
  | 115 => ⟨S_, .f32⟩
  | 116 => ⟨S128, .f32⟩
  | 117 => ⟨S128, .i1⟩
  | 118 => ⟨S_, .f32⟩
  | 119 => ⟨S128, .f32⟩
  | 120 => ⟨S_, .f32⟩
  | 121 => ⟨S128, .f32⟩
  | 122 => ⟨S128, .f32⟩
  | 123 => ⟨S128, .f32⟩
  | 124 => ⟨S_, .f32⟩
  | 125 => ⟨S_, .f32⟩
  | 126 => ⟨S128, .f32⟩
  | 127 => ⟨S128, .f32⟩
  | _ => ⟨S16x8x17x128x128, .f32⟩

abbrev hbmTy0_1 (i : Nat) : BufTy := match i % 128 with
  | 0 => ⟨S_, .f32⟩
  | 1 => ⟨S128, .f32⟩
  | 2 => ⟨S128, .f32⟩
  | 3 => ⟨S_, .f32⟩
  | 4 => ⟨S_, .f32⟩
  | 5 => ⟨S_, .f32⟩
  | 6 => ⟨S_, .f32⟩
  | 7 => ⟨S_, .f32⟩
  | 8 => ⟨S128, .f32⟩
  | 9 => ⟨S128, .f32⟩
  | 10 => ⟨S_, .f32⟩
  | 11 => ⟨S_, .f32⟩
  | 12 => ⟨S_, .f32⟩
  | 13 => ⟨S_, .f32⟩
  | _ => ⟨S16x8x17x128x128, .f32⟩

abbrev hbmTy (i : Nat) : BufTy := match i / 128 with
  | 0 => hbmTy0_0 i
  | 1 => hbmTy0_1 i
  | _ => ⟨S16x8x17x128x128, .f32⟩

abbrev bufTy : (tb : Table) → Fin (tcTables nBuf tb) → BufTy
  | .hbm, ⟨i, _⟩ => hbmTy i
  | .local _ .vmem, ⟨0, _⟩ => ⟨S8x17x128x128, .f32⟩
  | .local _ .vmem, ⟨1, _⟩ => ⟨S8x17x128x128, .f32⟩
  | .local _ .vmem, ⟨2, _⟩ => ⟨S8x17x10, .i32⟩
  | .local _ .vmem, ⟨3, _⟩ => ⟨S8x17x10, .i32⟩
  | .local _ .vmem, ⟨4, _⟩ => ⟨S8x17x10, .i32⟩
  | .local _ .vmem, ⟨5, _⟩ => ⟨S8x17x10, .i32⟩
  | .local _ .vmem, ⟨6, _⟩ => ⟨S8x17x10, .f32⟩
  | .local _ .vmem, ⟨7, _⟩ => ⟨S8x17x10, .f32⟩
  | _, _ => ⟨S16x8x17x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_c_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v21 : Ref sig .tc := ⟨.hbm, 35, rfl⟩
abbrev main_c_5 : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_cst_11 : Ref sig .tc := ⟨.hbm, 66, rfl⟩
abbrev main_v41 : Ref sig .tc := ⟨.hbm, 67, rfl⟩
abbrev main_v42 : Ref sig .tc := ⟨.hbm, 68, rfl⟩
abbrev main_cst_12 : Ref sig .tc := ⟨.hbm, 69, rfl⟩
abbrev main_call3_v0 : Ref sig .tc := ⟨.hbm, 70, rfl⟩
abbrev main_call3_v1 : Ref sig .tc := ⟨.hbm, 71, rfl⟩
abbrev main_v43 : Ref sig .tc := ⟨.hbm, 72, rfl⟩
abbrev main_cst_13 : Ref sig .tc := ⟨.hbm, 73, rfl⟩
abbrev main_v44 : Ref sig .tc := ⟨.hbm, 74, rfl⟩
abbrev main_cst_14 : Ref sig .tc := ⟨.hbm, 75, rfl⟩
abbrev main_v45 : Ref sig .tc := ⟨.hbm, 76, rfl⟩
abbrev main_v46 : Ref sig .tc := ⟨.hbm, 77, rfl⟩
abbrev main_cst_15 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_18 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_20 : Ref sig .tc := ⟨.hbm, 113, rfl⟩
abbrev main_v77 : Ref sig .tc := ⟨.hbm, 114, rfl⟩
abbrev main_cst_21 : Ref sig .tc := ⟨.hbm, 115, rfl⟩
abbrev main_v78 : Ref sig .tc := ⟨.hbm, 116, rfl⟩
abbrev main_v79 : Ref sig .tc := ⟨.hbm, 117, rfl⟩
abbrev main_cst_22 : Ref sig .tc := ⟨.hbm, 118, rfl⟩
abbrev main_v80 : Ref sig .tc := ⟨.hbm, 119, rfl⟩
abbrev main_cst_23 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_24 : Ref sig .tc := ⟨.hbm, 124, rfl⟩
abbrev main_call4_v0 : Ref sig .tc := ⟨.hbm, 125, rfl⟩
abbrev main_call4_v1 : Ref sig .tc := ⟨.hbm, 126, rfl⟩
abbrev main_v84 : Ref sig .tc := ⟨.hbm, 127, rfl⟩
abbrev main_cst_25 : Ref sig .tc := ⟨.hbm, 128, rfl⟩
abbrev main_v85 : Ref sig .tc := ⟨.hbm, 129, rfl⟩
abbrev main_v86 : Ref sig .tc := ⟨.hbm, 130, rfl⟩
abbrev main_cst_26 : Ref sig .tc := ⟨.hbm, 131, rfl⟩
abbrev main_v87 : Ref sig .tc := ⟨.hbm, 132, rfl⟩
abbrev main_cst_27 : Ref sig .tc := ⟨.hbm, 133, rfl⟩
abbrev main_v88 : Ref sig .tc := ⟨.hbm, 134, rfl⟩
abbrev main_cst_28 : Ref sig .tc := ⟨.hbm, 135, rfl⟩
abbrev main_v89 : Ref sig .tc := ⟨.hbm, 136, rfl⟩
abbrev main_v90 : Ref sig .tc := ⟨.hbm, 137, rfl⟩
abbrev main_cst_29 : Ref sig .tc := ⟨.hbm, 138, rfl⟩
abbrev main_v91 : Ref sig .tc := ⟨.hbm, 139, rfl⟩
abbrev main_cst_30 : Ref sig .tc := ⟨.hbm, 140, rfl⟩
abbrev main_v92 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x17x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x17x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x17x10 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x17x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8x17x128x128_S128x17x128x128 : S16x8x17x128x128.ShapeCasts S128x17x128x128
  shapeCasts_S16x8x10x17x2_S128x10x17x2 : S16x8x10x17x2.ShapeCasts S128x10x17x2
  bcast_S_S128x10x17x2 : S_.BroadcastsInDim S128x10x17x2 (![] : Fin 0 → Fin S128x10x17x2.rank)
  slices_S128x10x17x2_S128x10x17x1_0_0_0_0 : S128x10x17x2.Slices ![0, 0, 0, 0] S128x10x17x1
  shapeCasts_S128x10x17x1_S128x10x17 : S128x10x17x1.ShapeCasts S128x10x17
  slices_S128x10x17x2_S128x10x17x1_0_0_0_1 : S128x10x17x2.Slices ![0, 0, 0, 1] S128x10x17x1
  bcast_S_S128x10x17 : S_.BroadcastsInDim S128x10x17 (![] : Fin 0 → Fin S128x10x17.rank)
  transposes_S128x10x17_S128x17x10_0_2_1 : S128x10x17.Transposes [0, 2, 1] S128x17x10
  inb_S8x17x128x128_S8x17x128x128_0_0_0_0 : ∀ a, (![0, 0, 0, 0] : Fin 4 → Nat) a + S8x17x128x128.size a ≤ S8x17x128x128.size a
  h_S8x17x128x128 : 0 < S8x17x128x128.numel
  shapeCasts_S8x17x128x128_S8x17x128x128 : S8x17x128x128.ShapeCasts S8x17x128x128
  shapeCasts_S8x17x128x128_S136x128x128 : S8x17x128x128.ShapeCasts S136x128x128
  bitsLt_bf16_f32 : FTy.bits .bf16 < FTy.bits .f32
  inb_S8x17x10_S8x17x10_0_0_0 : ∀ a, (![0, 0, 0] : Fin 3 → Nat) a + S8x17x10.size a ≤ S8x17x10.size a
  h_S8x17x10 : 0 < S8x17x10.numel
  shapeCasts_S8x17x10_S8x17x10 : S8x17x10.ShapeCasts S8x17x10
  shapeCasts_S8x17x10_S136x10 : S8x17x10.ShapeCasts S136x10
  iota_S136x10x128_d2_w32 : S136x10x128.Iotas .tc 32 [2]
  shapeCasts_S136x10_S136x10x1 : S136x10.ShapeCasts S136x10x1
  broadcasts_S136x10x1_S136x10x128 : S136x10x1.Broadcasts S136x10x128
  natLt_1_32 : 1 < 32
  reduces_S136x10x128_S136x10 : S136x10x128.Reduces [2] S136x10
  shapeCasts_S136x10_S8x17x10 : S136x10.ShapeCasts S8x17x10
  transposes_S128x17x10_S128x10x17_0_2_1 : S128x17x10.Transposes [0, 2, 1] S128x10x17
  reducesTo_S128x10x17_S128x10_d2 : S128x10x17.ReducesTo [2] S128x10
  h_S_ : 0 < S_.numel
  bcast_S_S128x10 : S_.BroadcastsInDim S128x10 (![] : Fin 0 → Fin S128x10.rank)
  bcast_S128x10_S128x10x1_0_1 : S128x10.BroadcastsInDim S128x10x1 (![0, 1] : Fin 2 → Fin S128x10x1.rank)
  bcast_S128x10x1_S128x10x17_0_1_2 : S128x10x1.BroadcastsInDim S128x10x17 (![0, 1, 2] : Fin 3 → Fin S128x10x17.rank)
  reducesTo_S128x10_S128_d1 : S128x10.ReducesTo [1] S128
  bcast_S_S128 : S_.BroadcastsInDim S128 (![] : Fin 0 → Fin S128.rank)
  bcast_S128x10_S128x1x10_0_2 : S128x10.BroadcastsInDim S128x1x10 (![0, 2] : Fin 2 → Fin S128x1x10.rank)
  bcast_S128x1x10_S128x10x10_0_1_2 : S128x1x10.BroadcastsInDim S128x10x10 (![0, 1, 2] : Fin 3 → Fin S128x10x10.rank)
  bcast_S128x10x1_S128x10x10_0_1_2 : S128x10x1.BroadcastsInDim S128x10x10 (![0, 1, 2] : Fin 3 → Fin S128x10x10.rank)
  bcast_S_S10x10 : S_.BroadcastsInDim S10x10 (![] : Fin 0 → Fin S10x10.rank)
  bcast_S10x10_S1x10x10_1_2 : S10x10.BroadcastsInDim S1x10x10 (![1, 2] : Fin 2 → Fin S1x10x10.rank)
  bcast_S1x10x10_S128x10x10_0_1_2 : S1x10x10.BroadcastsInDim S128x10x10 (![0, 1, 2] : Fin 3 → Fin S128x10x10.rank)
  bcast_S_S128x10x10 : S_.BroadcastsInDim S128x10x10 (![] : Fin 0 → Fin S128x10x10.rank)
  reducesTo_S128x10x10_S128_d1_2 : S128x10x10.ReducesTo [1, 2] S128
  reducesTo_S128_S_d0 : S128.ReducesTo [0] S_
  dot_S136x10x128_S136x128x128_S136x10x128_2_1_1_2_0_0_wf : DotDims.WF S136x10x128 S136x128x128 S136x10x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x17x128x128.size a ≤ S128x17x128x128.size a
  hwx0_0 : ∀ i : grid0.Coords, EltTy.bits .f32 = 32 ∨ (Rect.block (s := S128x17x128x128) S8x17x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x17x10.size a ≤ S128x17x10.size a
  hwx0_1 : ∀ i : grid0.Coords, EltTy.bits .i32 = 32 ∨ (Rect.block (s := S128x17x10) S8x17x10.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x17x10.size a ≤ S128x17x10.size a
  hwx0_2 : ∀ i : grid0.Coords, EltTy.bits .i32 = 32 ∨ (Rect.block (s := S128x17x10) S8x17x10.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x17x10.size a ≤ S128x17x10.size a
  hwx0_3 : ∀ i : grid0.Coords, EltTy.bits .f32 = 32 ∨ (Rect.block (s := S128x17x10) S8x17x10.size (cc0_transform_3 i) (hinb0_3 i)).WholeWords (EltTy.packing .f32)

variable [Facts₀]

def dot_S136x10x128_S136x128x128_S136x10x128_2_1_1_2_0_0 : DotDims S136x10x128 S136x128x128 S136x10x128 where
  lhsContracting := [2]
  rhsContracting := [1]
  lhsNonContracting := [1]
  rhsNonContracting := [2]
  lhsBatch := [0]
  rhsBatch := [0]
  wf := dot_S136x10x128_S136x128x128_S136x10x128_2_1_1_2_0_0_wf

abbrev win0_0 : Pipeline.Window sig grid0 :=
  Pipeline.Window.ofSpec (Memref.whole main_v0) S8x17x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S8x17x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S8x17x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8x17x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8x17x128x128 : Shape := ⟨5, ![16, 8, 17, 128, 128]⟩
abbrev S16x8x10x17x2 : Shape := ⟨5, ![16, 8, 10, 17, 2]⟩
abbrev S128x17x128x128 : Shape := ⟨4, ![128, 17, 128, 128]⟩
abbrev S128x10x17x2 : Shape := ⟨4, ![128, 10, 17, 2]⟩
abbrev S_ : Shape := ⟨0, ![]⟩
abbrev S128x10x17x1 : Shape := ⟨4, ![128, 10, 17, 1]⟩
abbrev S128x10x17 : Shape := ⟨3, ![128, 10, 17]⟩
abbrev S128 : Shape := ⟨1, ![128]⟩
abbrev S128x1x1 : Shape := ⟨3, ![128, 1, 1]⟩
abbrev S17 : Shape := ⟨1, ![17]⟩
abbrev S1x1x17 : Shape := ⟨3, ![1, 1, 17]⟩
abbrev S128x10x17x4 : Shape := ⟨4, ![128, 10, 17, 4]⟩
abbrev S128x10 : Shape := ⟨2, ![128, 10]⟩
abbrev S128x10x1 : Shape := ⟨3, ![128, 10, 1]⟩
abbrev S128x1x10 : Shape := ⟨3, ![128, 1, 10]⟩
abbrev S128x10x10 : Shape := ⟨3, ![128, 10, 10]⟩
abbrev S10x10 : Shape := ⟨2, ![10, 10]⟩
abbrev S1x10x10 : Shape := ⟨3, ![1, 10, 10]⟩

abbrev nBuf : Space → Nat
  | .hbm => 178
  | .vmem => 0
  | .smem => 0
  | _ => 0

abbrev hbmTy0_0 (i : Nat) : BufTy := match i % 128 with
  | 0 => ⟨S16x8x17x128x128, .f32⟩
  | 1 => ⟨S16x8x10x17x2, .f32⟩
  | 2 => ⟨S128x17x128x128, .f32⟩
  | 3 => ⟨S128x10x17x2, .f32⟩
  | 4 => ⟨S_, .f32⟩
  | 5 => ⟨S128x10x17x2, .f32⟩
  | 6 => ⟨S128x10x17x2, .f32⟩
  | 7 => ⟨S128x10x17x2, .f32⟩
  | 8 => ⟨S128x10x17x2, .i32⟩
  | 9 => ⟨S128x10x17x1, .i32⟩
  | 10 => ⟨S128x10x17, .i32⟩
  | 11 => ⟨S128x10x17x1, .i32⟩
  | 12 => ⟨S128x10x17, .i32⟩
  | 13 => ⟨S_, .i32⟩
  | 14 => ⟨S128x10x17, .i32⟩
  | 15 => ⟨S128x10x17, .i1⟩
  | 16 => ⟨S_, .i32⟩
  | 17 => ⟨S128x10x17, .i32⟩
  | 18 => ⟨S128x10x17, .i1⟩
  | 19 => ⟨S128x10x17, .i1⟩
  | 20 => ⟨S_, .i32⟩
  | 21 => ⟨S128x10x17, .i32⟩
  | 22 => ⟨S128x10x17, .i1⟩
  | 23 => ⟨S128x10x17, .i1⟩
  | 24 => ⟨S_, .i32⟩
  | 25 => ⟨S128x10x17, .i32⟩
  | 26 => ⟨S128x10x17, .i1⟩
  | 27 => ⟨S128x10x17, .i1⟩
  | 28 => ⟨S_, .i32⟩
  | 29 => ⟨S_, .i32⟩
  | 30 => ⟨S_, .i32⟩
  | 31 => ⟨S128x10x17, .i32⟩
  | 32 => ⟨S128x10x17, .i32⟩
  | 33 => ⟨S_, .i32⟩
  | 34 => ⟨S128x10x17, .i32⟩
  | 35 => ⟨S128x10x17, .i32⟩
  | 36 => ⟨S_, .i32⟩
  | 37 => ⟨S_, .i32⟩
  | 38 => ⟨S_, .i32⟩
  | 39 => ⟨S128x10x17, .i32⟩
  | 40 => ⟨S128x10x17, .i32⟩
  | 41 => ⟨S_, .i32⟩
  | 42 => ⟨S128x10x17, .i32⟩
  | 43 => ⟨S128x10x17, .i32⟩
  | 44 => ⟨S128, .i32⟩
  | 45 => ⟨S128x1x1, .i32⟩
  | 46 => ⟨S17, .i32⟩
  | 47 => ⟨S1x1x17, .i32⟩
  | 48 => ⟨S_, .i32⟩
  | 49 => ⟨S128x1x1, .i32⟩
  | 50 => ⟨S128x1x1, .i1⟩
  | 51 => ⟨S_, .i32⟩
  | 52 => ⟨S128x1x1, .i32⟩
  | 53 => ⟨S128x1x1, .i32⟩
  | 54 => ⟨S128x1x1, .i32⟩
  | 55 => ⟨S_, .i32⟩
  | 56 => ⟨S1x1x17, .i32⟩
  | 57 => ⟨S1x1x17, .i1⟩
  | 58 => ⟨S_, .i32⟩
  | 59 => ⟨S1x1x17, .i32⟩
  | 60 => ⟨S1x1x17, .i32⟩
  | 61 => ⟨S1x1x17, .i32⟩
  | 62 => ⟨S_, .i32⟩
  | 63 => ⟨S128x10x17, .i32⟩
  | 64 => ⟨S128x10x17, .i1⟩
  | 65 => ⟨S_, .i32⟩
  | 66 => ⟨S128x10x17, .i32⟩
  | 67 => ⟨S128x10x17, .i32⟩
  | 68 => ⟨S128x10x17, .i32⟩
  | 69 => ⟨S_, .i32⟩
  | 70 => ⟨S128x10x17, .i32⟩
  | 71 => ⟨S128x10x17, .i1⟩
  | 72 => ⟨S_, .i32⟩
  | 73 => ⟨S128x10x17, .i32⟩
  | 74 => ⟨S128x10x17, .i32⟩
  | 75 => ⟨S128x10x17, .i32⟩
  | 76 => ⟨S128x10x17, .i32⟩
  | 77 => ⟨S128x10x17, .i32⟩
  | 78 => ⟨S128x10x17x1, .i32⟩
  | 79 => ⟨S128x10x17x1, .i32⟩
  | 80 => ⟨S128x10x17x1, .i32⟩
  | 81 => ⟨S128x10x17x1, .i32⟩
  | 82 => ⟨S128x10x17x4, .i32⟩
  | 83 => ⟨S128x10x17, .f32⟩
  | 84 => ⟨S128x10x17, .f32⟩
  | 85 => ⟨S_, .f32⟩
  | 86 => ⟨S128x10, .f32⟩
  | 87 => ⟨S_, .f32⟩
  | 88 => ⟨S128x10, .f32⟩
  | 89 => ⟨S128x10, .f32⟩
  | 90 => ⟨S128x10x17, .f32⟩
  | 91 => ⟨S_, .f32⟩
  | 92 => ⟨S128x10, .f32⟩
  | 93 => ⟨S128x10, .f32⟩
  | 94 => ⟨S128x10x1, .f32⟩
  | 95 => ⟨S128x10x17, .f32⟩
  | 96 => ⟨S128x10x17, .f32⟩
  | 97 => ⟨S128x10x17, .f32⟩
  | 98 => ⟨S128x10x17, .f32⟩
  | 99 => ⟨S_, .f32⟩
  | 100 => ⟨S128x10, .f32⟩
  | 101 => ⟨S128x10, .f32⟩
  | 102 => ⟨S_, .f32⟩
  | 103 => ⟨S128x10, .f32⟩
  | 104 => ⟨S128x10, .i1⟩
  | 105 => ⟨S_, .f32⟩
  | 106 => ⟨S_, .f32⟩
  | 107 => ⟨S128x10, .f32⟩
  | 108 => ⟨S128x10, .f32⟩
  | 109 => ⟨S_, .f32⟩
  | 110 => ⟨S128, .f32⟩
  | 111 => ⟨S_, .f32⟩
  | 112 => ⟨S128, .f32⟩
  | 113 => ⟨S128, .f32⟩
  | 114 => ⟨S_, .f32⟩
  | 115 => ⟨S128x10, .f32⟩
  | 116 => ⟨S128x10, .i1⟩
  | 117 => ⟨S128x10, .f32⟩
  | 118 => ⟨S128x1x10, .f32⟩
  | 119 => ⟨S128x10x1, .f32⟩
  | 120 => ⟨S128x10x10, .f32⟩
  | 121 => ⟨S128x10x10, .f32⟩
  | 122 => ⟨S128x10x10, .f32⟩
  | 123 => ⟨S128x10x1, .f32⟩
  | 124 => ⟨S128x1x10, .f32⟩
  | 125 => ⟨S128x10x10, .f32⟩
  | 126 => ⟨S128x10x10, .f32⟩
  | 127 => ⟨S128x10x10, .f32⟩
  | _ => ⟨S16x8x17x128x128, .f32⟩

abbrev hbmTy0_1 (i : Nat) : BufTy := match i % 128 with
  | 0 => ⟨S10x10, .i32⟩
  | 1 => ⟨S10x10, .i32⟩
  | 2 => ⟨S_, .i32⟩
  | 3 => ⟨S10x10, .i32⟩
  | 4 => ⟨S10x10, .i32⟩
  | 5 => ⟨S10x10, .i1⟩
  | 6 => ⟨S10x10, .f32⟩
  | 7 => ⟨S_, .f32⟩
  | 8 => ⟨S10x10, .f32⟩
  | 9 => ⟨S10x10, .f32⟩
  | 10 => ⟨S1x10x10, .f32⟩
  | 11 => ⟨S128x10x10, .f32⟩
  | 12 => ⟨S128x10x10, .f32⟩
  | 13 => ⟨S128x10x10, .f32⟩
  | 14 => ⟨S_, .f32⟩
  | 15 => ⟨S128x10x10, .f32⟩
  | 16 => ⟨S128x10x10, .f32⟩
  | 17 => ⟨S_, .f32⟩
  | 18 => ⟨S128x10x10, .f32⟩
  | 19 => ⟨S128x10x10, .f32⟩
  | 20 => ⟨S128x10x10, .f32⟩
  | 21 => ⟨S_, .f32⟩
  | 22 => ⟨S128, .f32⟩
  | 23 => ⟨S_, .f32⟩
  | 24 => ⟨S128, .f32⟩
  | 25 => ⟨S128, .i1⟩
  | 26 => ⟨S_, .f32⟩
  | 27 => ⟨S128, .f32⟩
  | 28 => ⟨S_, .f32⟩
  | 29 => ⟨S128, .f32⟩
  | 30 => ⟨S128, .f32⟩
  | 31 => ⟨S128, .f32⟩
  | 32 => ⟨S_, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S_, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S_, .f32⟩
  | 47 => ⟨S_, .f32⟩
  | 48 => ⟨S_, .f32⟩
  | 49 => ⟨S_, .f32⟩
  | _ => ⟨S16x8x17x128x128, .f32⟩

abbrev hbmTy (i : Nat) : BufTy := match i / 128 with
  | 0 => hbmTy0_0 i
  | 1 => hbmTy0_1 i
  | _ => ⟨S16x8x17x128x128, .f32⟩

abbrev bufTy : (tb : Table) → Fin (tcTables nBuf tb) → BufTy
  | .hbm, ⟨i, _⟩ => hbmTy i
  | _, _ => ⟨S16x8x17x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_c_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v21 : Ref sig .tc := ⟨.hbm, 35, rfl⟩
abbrev main_c_5 : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_c_10 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_c_12 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_13 : Ref sig .tc := ⟨.hbm, 69, rfl⟩
abbrev main_v42 : Ref sig .tc := ⟨.hbm, 70, rfl⟩
abbrev main_v43 : Ref sig .tc := ⟨.hbm, 71, rfl⟩
abbrev main_c_14 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_17 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_18 : Ref sig .tc := ⟨.hbm, 99, rfl⟩
abbrev main_v67 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_v70 : Ref sig .tc := ⟨.hbm, 104, rfl⟩
abbrev main_cst_20 : Ref sig .tc := ⟨.hbm, 105, rfl⟩
abbrev main_call3_v0 : Ref sig .tc := ⟨.hbm, 106, rfl⟩
abbrev main_call3_v1 : Ref sig .tc := ⟨.hbm, 107, rfl⟩
abbrev main_v71 : Ref sig .tc := ⟨.hbm, 108, rfl⟩
abbrev main_cst_21 : Ref sig .tc := ⟨.hbm, 109, rfl⟩
abbrev main_v72 : Ref sig .tc := ⟨.hbm, 110, rfl⟩
abbrev main_cst_22 : Ref sig .tc := ⟨.hbm, 111, rfl⟩
abbrev main_v73 : Ref sig .tc := ⟨.hbm, 112, rfl⟩
abbrev main_v74 : Ref sig .tc := ⟨.hbm, 113, rfl⟩
abbrev main_cst_23 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_24 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_25 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_26 : Ref sig .tc := ⟨.hbm, 142, rfl⟩
abbrev main_v100 : Ref sig .tc := ⟨.hbm, 143, rfl⟩
abbrev main_v101 : Ref sig .tc := ⟨.hbm, 144, rfl⟩
abbrev main_cst_27 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_28 : Ref sig .tc := ⟨.hbm, 149, rfl⟩
abbrev main_v105 : Ref sig .tc := ⟨.hbm, 150, rfl⟩
abbrev main_cst_29 : Ref sig .tc := ⟨.hbm, 151, rfl⟩
abbrev main_v106 : Ref sig .tc := ⟨.hbm, 152, rfl⟩
abbrev main_v107 : Ref sig .tc := ⟨.hbm, 153, rfl⟩
abbrev main_cst_30 : Ref sig .tc := ⟨.hbm, 154, rfl⟩
abbrev main_v108 : Ref sig .tc := ⟨.hbm, 155, rfl⟩
abbrev main_cst_31 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_32 : Ref sig .tc := ⟨.hbm, 160, rfl⟩
abbrev main_call4_v0 : Ref sig .tc := ⟨.hbm, 161, rfl⟩
abbrev main_call4_v1 : Ref sig .tc := ⟨.hbm, 162, rfl⟩
abbrev main_v112 : Ref sig .tc := ⟨.hbm, 163, rfl⟩
abbrev main_cst_33 : Ref sig .tc := ⟨.hbm, 164, rfl⟩
abbrev main_v113 : Ref sig .tc := ⟨.hbm, 165, rfl⟩
abbrev main_v114 : Ref sig .tc := ⟨.hbm, 166, rfl⟩
abbrev main_cst_34 : Ref sig .tc := ⟨.hbm, 167, rfl⟩
abbrev main_v115 : Ref sig .tc := ⟨.hbm, 168, rfl⟩
abbrev main_cst_35 : Ref sig .tc := ⟨.hbm, 169, rfl⟩
abbrev main_v116 : Ref sig .tc := ⟨.hbm, 170, rfl⟩
abbrev main_cst_36 : Ref sig .tc := ⟨.hbm, 171, rfl⟩
abbrev main_v117 : Ref sig .tc := ⟨.hbm, 172, rfl⟩
abbrev main_v118 : Ref sig .tc := ⟨.hbm, 173, rfl⟩
abbrev main_cst_37 : Ref sig .tc := ⟨.hbm, 174, rfl⟩
abbrev main_v119 : Ref sig .tc := ⟨.hbm, 175, rfl⟩
abbrev main_cst_38 : Ref sig .tc := ⟨.hbm, 176, rfl⟩
abbrev main_v120 : Ref sig .tc := ⟨.hbm, 177, rfl⟩

abbrev nD : Nat := 1
abbrev τ : Topo := Topo.v7x

variable {F : FTy → Type} [FloatOps F]

class Facts₀ : Prop where
  shapeCasts_S16x8x17x128x128_S128x17x128x128 : S16x8x17x128x128.ShapeCasts S128x17x128x128
  shapeCasts_S16x8x10x17x2_S128x10x17x2 : S16x8x10x17x2.ShapeCasts S128x10x17x2
  bcast_S_S128x10x17x2 : S_.BroadcastsInDim S128x10x17x2 (![] : Fin 0 → Fin S128x10x17x2.rank)
  slices_S128x10x17x2_S128x10x17x1_0_0_0_0 : S128x10x17x2.Slices ![0, 0, 0, 0] S128x10x17x1
  shapeCasts_S128x10x17x1_S128x10x17 : S128x10x17x1.ShapeCasts S128x10x17
  slices_S128x10x17x2_S128x10x17x1_0_0_0_1 : S128x10x17x2.Slices ![0, 0, 0, 1] S128x10x17x1
  bcast_S_S128x10x17 : S_.BroadcastsInDim S128x10x17 (![] : Fin 0 → Fin S128x10x17.rank)
  bcast_S128_S128x1x1_0 : S128.BroadcastsInDim S128x1x1 (![0] : Fin 1 → Fin S128x1x1.rank)
  bcast_S17_S1x1x17_2 : S17.BroadcastsInDim S1x1x17 (![2] : Fin 1 → Fin S1x1x17.rank)
  bcast_S_S128x1x1 : S_.BroadcastsInDim S128x1x1 (![] : Fin 0 → Fin S128x1x1.rank)
  bcast_S_S1x1x17 : S_.BroadcastsInDim S1x1x17 (![] : Fin 0 → Fin S1x1x17.rank)
  bcast_S128x1x1_S128x10x17_0_1_2 : S128x1x1.BroadcastsInDim S128x10x17 (![0, 1, 2] : Fin 3 → Fin S128x10x17.rank)
  bcast_S1x1x17_S128x10x17_0_1_2 : S1x1x17.BroadcastsInDim S128x10x17 (![0, 1, 2] : Fin 3 → Fin S128x10x17.rank)
  bcast_S128x10x17_S128x10x17x1_0_1_2 : S128x10x17.BroadcastsInDim S128x10x17x1 (![0, 1, 2] : Fin 3 → Fin S128x10x17x1.rank)
  concatenates_S128x10x17x1_S128x10x17x1_S128x10x17x1_S128x10x17x1_S128x10x17x4_d3 : Shape.Concatenates [S128x10x17x1, S128x10x17x1, S128x10x17x1, S128x10x17x1] S128x10x17x4 3
  reducesTo_S128x10x17_S128x10_d2 : S128x10x17.ReducesTo [2] S128x10
  h_S_ : 0 < S_.numel
  bcast_S_S128x10 : S_.BroadcastsInDim S128x10 (![] : Fin 0 → Fin S128x10.rank)
  bcast_S128x10_S128x10x1_0_1 : S128x10.BroadcastsInDim S128x10x1 (![0, 1] : Fin 2 → Fin S128x10x1.rank)
  bcast_S128x10x1_S128x10x17_0_1_2 : S128x10x1.BroadcastsInDim S128x10x17 (![0, 1, 2] : Fin 3 → Fin S128x10x17.rank)
  reducesTo_S128x10_S128_d1 : S128x10.ReducesTo [1] S128
  bcast_S_S128 : S_.BroadcastsInDim S128 (![] : Fin 0 → Fin S128.rank)
  bcast_S128x10_S128x1x10_0_2 : S128x10.BroadcastsInDim S128x1x10 (![0, 2] : Fin 2 → Fin S128x1x10.rank)
  bcast_S128x1x10_S128x10x10_0_1_2 : S128x1x10.BroadcastsInDim S128x10x10 (![0, 1, 2] : Fin 3 → Fin S128x10x10.rank)
  bcast_S128x10x1_S128x10x10_0_1_2 : S128x10x1.BroadcastsInDim S128x10x10 (![0, 1, 2] : Fin 3 → Fin S128x10x10.rank)
  bcast_S_S10x10 : S_.BroadcastsInDim S10x10 (![] : Fin 0 → Fin S10x10.rank)
  bcast_S10x10_S1x10x10_1_2 : S10x10.BroadcastsInDim S1x10x10 (![1, 2] : Fin 2 → Fin S1x10x10.rank)
  bcast_S1x10x10_S128x10x10_0_1_2 : S1x10x10.BroadcastsInDim S128x10x10 (![0, 1, 2] : Fin 3 → Fin S128x10x10.rank)
  bcast_S_S128x10x10 : S_.BroadcastsInDim S128x10x10 (![] : Fin 0 → Fin S128x10x10.rank)
  reducesTo_S128x10x10_S128_d1_2 : S128x10x10.ReducesTo [1, 2] S128
  reducesTo_S128_S_d0 : S128.ReducesTo [0] S_
  gather_S128x17x128x128_S128x10x17x4_S128x10x17_n_0123_n_n_0123_3_1111_wf : GatherDims.WF S128x17x128x128 S128x10x17x4 S128x10x17 [] [0, 1, 2, 3] [] [0, 1, 2, 3] [] 3 ![1, 1, 1, 1]

variable [Facts₀]

def gather_S128x17x128x128_S128x10x17x4_S128x10x17_n_0123_n_n_0123_3_1111 : GatherDims S128x17x128x128 S128x10x17x4 S128x10x17 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S128x17x128x128_S128x10x17x4_S128x10x17_n_0123_n_n_0123_3_1111_wf

class Facts : Prop extends Facts₀ where

variable [Facts]
-- ==== Proof.FrameHostBits.lean ====
/-
  The host side of the frame of `Cert.Kernel`: @main is seven stretches of host lines (the coordinates rounded, clamped
  and transposed), one pallas_call, and five stretches of host lines (the person means, variances and hinge sums).

  * `V0`: the buffers' contents when the region is entered, the fold of the earlier lines over the launch memory.
  * `hmain`: @main reduces to the region continued by the later lines.
  * No line writes an argument array, and no later line writes an array the pipeline stages: every line writes only
    its own result buffer, and the buffers are pairwise distinct references (decided reference by reference).
-/
import proofs.«159086_j30863634989288_1_alg».proof.Proof.Gen.Kernel.Launch
import Idealize.ShloMosaic.Lib.Pipeline.FrameBody
import Idealize.ShloMosaic.Lib.Pipeline.FrameSuffix

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The stretches of host lines before the region, -/
abbrev preOps : List (List (HloOp τ sig (Elt F))) :=
  [hostOps0, hostOps0_1, hostOps0_2, hostOps0_3, hostOps0_4, hostOps0_5, hostOps0_6]
/-- and after it. -/
abbrev postOps : List (List (HloOp τ sig (Elt F))) :=
  [hostOps1, hostOps1_1, hostOps1_2, hostOps1_3, hostOps1_4]

/-- Core `c`'s buffer contents when the region is entered: the earlier lines folded over the launch memory. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-! ## No line allocates -/

theorem preOps_fresh : (preOps (F := F)).Forall fun ops => ops.Forall fun op => op.fresh = ∅ := by
  simp only [List.Forall]; repeat' constructor
theorem postOps_fresh : (postOps (F := F)).Forall fun ops => ops.Forall fun op => op.fresh = ∅ := by
  simp only [List.Forall]; repeat' constructor

theorem preOps_sub : (preOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub⟩
theorem postOps_sub : (postOps (F := F)).Forall fun ops => ops.Forall fun op => op.bufs ⊆ StableHlo.tcRefs τ sig := by
  simp only [List.Forall]
  exact ⟨hostOps1_sub, hostOps1_1_sub, hostOps1_2_sub, hostOps1_3_sub, hostOps1_4_sub⟩

/-! ## @main around the region -/

/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps (F := F)).map StableHlo.seq)) :=
  Pipeline.hmain_around cfgs 0 defs₀ 𝒱₀ m main preOps postOps preOps_sub preOps_fresh main_chain

/-! ## What the lines write -/

/-- A line that writes neither argument array nor any of the four arrays the pipeline stages. -/
def Keeps (op : HloOp τ sig (Elt F)) : Prop :=
  Proc.devRef .tc main_arg0 ∉ op.writes ∧ Proc.devRef .tc main_arg1 ∉ op.writes
    ∧ Proc.devRef .tc main_v0 ∉ op.writes ∧ Proc.devRef .tc main_v24 ∉ op.writes
    ∧ Proc.devRef .tc main_v23 ∉ op.writes ∧ Proc.devRef .tc main_v25 ∉ op.writes

/-- A line that writes neither argument array. -/
def KeepsArgs (op : HloOp τ sig (Elt F)) : Prop :=
  Proc.devRef .tc main_arg0 ∉ op.writes ∧ Proc.devRef .tc main_arg1 ∉ op.writes

local macro "distinct_results" : tactic => `(tactic| (
  simp only [List.Forall, Keeps, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)))

theorem pre0_keeps : (hostOps0 : List (HloOp τ sig (Elt F))).Forall KeepsArgs := by distinct_results
theorem pre1_keeps : (hostOps0_1 : List (HloOp τ sig (Elt F))).Forall KeepsArgs := by distinct_results
theorem pre2_keeps : (hostOps0_2 : List (HloOp τ sig (Elt F))).Forall KeepsArgs := by distinct_results
theorem pre3_keeps : (hostOps0_3 : List (HloOp τ sig (Elt F))).Forall KeepsArgs := by distinct_results
theorem pre4_keeps : (hostOps0_4 : List (HloOp τ sig (Elt F))).Forall KeepsArgs := by distinct_results
theorem pre5_keeps : (hostOps0_5 : List (HloOp τ sig (Elt F))).Forall KeepsArgs := by distinct_results
theorem pre6_keeps : (hostOps0_6 : List (HloOp τ sig (Elt F))).Forall KeepsArgs := by distinct_results

theorem post0_keeps : (hostOps1 : List (HloOp τ sig (Elt F))).Forall Keeps := by distinct_results
theorem post1_keeps : (hostOps1_1 : List (HloOp τ sig (Elt F))).Forall Keeps := by distinct_results
theorem post2_keeps : (hostOps1_2 : List (HloOp τ sig (Elt F))).Forall Keeps := by distinct_results
theorem post3_keeps : (hostOps1_3 : List (HloOp τ sig (Elt F))).Forall Keeps := by distinct_results
theorem post4_keeps : (hostOps1_4 : List (HloOp τ sig (Elt F))).Forall Keeps := by distinct_results

/-- Every line before the region leaves the argument arrays alone. -/
theorem pre_keeps : ∀ op ∈ List.flatten (preOps (F := F)), KeepsArgs op := by
  intro op hop
  simp only [preOps, List.mem_flatten, List.mem_cons, List.mem_nil_iff, or_false] at hop
  obtain ⟨ops, hops, hop⟩ := hop
  rcases hops with rfl | rfl | rfl | rfl | rfl | rfl | rfl
  · exact (List.forall_iff_forall_mem.mp pre0_keeps) op hop
  · exact (List.forall_iff_forall_mem.mp pre1_keeps) op hop
  · exact (List.forall_iff_forall_mem.mp pre2_keeps) op hop
  · exact (List.forall_iff_forall_mem.mp pre3_keeps) op hop
  · exact (List.forall_iff_forall_mem.mp pre4_keeps) op hop
  · exact (List.forall_iff_forall_mem.mp pre5_keeps) op hop
  · exact (List.forall_iff_forall_mem.mp pre6_keeps) op hop

/-- Every line after the region leaves the argument arrays and the pipeline's arrays alone. -/
theorem post_keeps : ∀ ops ∈ (postOps (F := F)), ∀ op ∈ ops, Keeps op := by
  intro ops hops op hop
  simp only [postOps, List.mem_cons, List.mem_nil_iff, or_false] at hops
  rcases hops with rfl | rfl | rfl | rfl | rfl
  · exact (List.forall_iff_forall_mem.mp post0_keeps) op hop
  · exact (List.forall_iff_forall_mem.mp post1_keeps) op hop
  · exact (List.forall_iff_forall_mem.mp post2_keeps) op hop
  · exact (List.forall_iff_forall_mem.mp post3_keeps) op hop
  · exact (List.forall_iff_forall_mem.mp post4_keeps) op hop

theorem post_keeps_flat : ∀ op ∈ List.flatten (postOps (F := F)), Keeps op := by
  intro op hop
  obtain ⟨ops, hops, hop⟩ := List.mem_flatten.mp hop
  exact post_keeps ops hops op hop

/-! ## The later lines, as the frame run wants them -/

/-- The later lines touch only unscoped TensorCore buffers (nothing is prefetched, so those are the pipeline's arrays
    and the buffers that bypass the region). -/
theorem sfx_sub : ∀ ops ∈ (postOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp postOps_sub) ops hops)) op hop)

/-- They allocate nothing. -/
theorem sfx_fresh : ∀ ops ∈ (postOps (F := F)), ∀ op ∈ ops, op.fresh = ∅ := by
  intro ops hops op hop
  exact (List.forall_iff_forall_mem.mp ((List.forall_iff_forall_mem.mp postOps_fresh) ops hops)) op hop

/-- And write no array of the pipeline. -/
theorem sfx_keeps : ∀ ops ∈ (postOps (F := F)), ∀ op ∈ ops,
    ∀ w, Proc.devRef .tc (Pipeline.arrRef spec0 w) ∉ op.writes := by
  intro ops hops op hop w
  have h := post_keeps ops hops op hop
  fin_cases w
  · exact h.2.2.1
  · exact h.2.2.2.1
  · exact h.2.2.2.2.1
  · exact h.2.2.2.2.2

/-! ## The argument arrays, at the region's entry and at the end -/

theorem V_main_arg0 (c : Dev nD) : V m c main_arg0 = m ((c : Thread nD τ).loc main_arg0) :=
  StableHlo.after_of_forall_not_mem (b := Proc.devRef .tc main_arg0) _ _ fun op hop => (pre_keeps op hop).1
theorem V_main_arg1 (c : Dev nD) : V m c main_arg1 = m ((c : Thread nD τ).loc main_arg1) :=
  StableHlo.after_of_forall_not_mem (b := Proc.devRef .tc main_arg1) _ _ fun op hop => (pre_keeps op hop).2

/-- No later line writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) postOps c main_arg0 = m ((c : Thread nD τ).loc main_arg0) := by
  unfold Pipeline.afterTail₀
  rw [StableHlo.after_of_forall_not_mem (b := Proc.devRef .tc main_arg0) _ _ fun op hop => (post_keeps_flat op hop).1,
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) postOps c main_arg1 = m ((c : Thread nD τ).loc main_arg1) := by
  unfold Pipeline.afterTail₀
  rw [StableHlo.after_of_forall_not_mem (b := Proc.devRef .tc main_arg1) _ _ fun op hop => (post_keeps_flat op hop).2.1,
    Pipeline.withArrays_of_ne _ c (V0 m c) _ main_arg1 (by exact (by decide : ∀ w, Pipeline.arrRef spec0 w ≠ main_arg1))]
  exact V_main_arg1 m c

end Cert.Kernel.Frame

end
-- ==== Proof.FrameBodyBits.lean ====
/-
  The frame of `Cert.Kernel`: the pallas_call's body run once at a generic grid point, and the launch around it.

  The body loads its three input blocks whole (eight images' heatmaps [8,17,128,128] and the two clamped coordinate
  blocks [8,17,10]), loads the output block (unused), and stores ONE value over the whole output block [8,17,10]: the
  skeleton's payload `k0_pay1` of the three loaded blocks. So after the body the output's staging buffer holds that
  payload (`out3`), the inputs' buffers are as they were, and the pipeline writes the block back at every point.
  The launch is the library's frame run for a region continued by host lines.
-/
import proofs.«159086_j30863634989288_1_alg».proof.Proof.FrameHostBits
import proofs.«159086_j30863634989288_1_alg».proof.Proof.Gen.Kernel.Skeleton
import proofs.«159086_j30863634989288_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point (each is fetched at every point and the body
    leaves it in place). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each block whole -/

abbrev rHeat : Rect S8x17x128x128 := Rect.unit (s := S8x17x128x128) ![0, 0, 0, 0] S8x17x128x128.size inb_S8x17x128x128_S8x17x128x128_0_0_0_0
abbrev rCoord : Rect S8x17x10 := Rect.unit (s := S8x17x10) ![0, 0, 0] S8x17x10.size inb_S8x17x10_S8x17x10_0_0_0

/-- The output's staging buffer after the body: its one store, of the payload of the three loaded blocks. -/
def out3 (x0 : Vec F S8x17x128x128 .f32) (x1 : Vec F S8x17x10 .i32) (x2 : Vec F S8x17x10 .i32) : Vec F S8x17x10 .f32 :=
  View.canon [⟨rCoord, k0_pay1 (View.ld x0 rHeat) (View.ld x1 rCoord) (View.ld x2 rCoord)⟩]

/-- The one store covers the block. -/
theorem cover3 (p0 : Vec F S8x17x10 .f32) (y : S8x17x10.Idx) :
    ∃ pc ∈ ([⟨rCoord, p0⟩] : List (View.Piece (Elt F) S8x17x10 .f32)), y ∈ pc.1.set :=
  View.cover_of_tiled [⟨rCoord, p0⟩] S8x17x10.size (by rfl) y

/-! ## The body's triple -/

set_option maxHeartbeats 1000000 in
/-- The body on whole staging memrefs, the inputs' at contents `x0 x1 x2` and the output's at anything, runs to the
    continuation holding the inputs' as they were and the output's at `out3 x0 x1 x2`. -/
theorem sound_kernel (c : Dev nD) (E : Set ℕ) (i : grid0.Coords) (arg1 : Memref sig .tc .vmem S8x17x128x128 .f32) (harg1 : arg1.IsWhole) (arg2 : Memref sig .tc .vmem S8x17x10 .i32) (harg2 : arg2.IsWhole) (arg3 : Memref sig .tc .vmem S8x17x10 .i32) (harg3 : arg3.IsWhole) (arg4 : Memref sig .tc .vmem S8x17x10 .f32) (harg4 : arg4.IsWhole)
    (x0 : Vec F S8x17x128x128 .f32) (x1 : Vec F S8x17x10 .i32) (x2 : Vec F S8x17x10 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__gather_kernel i arg1 harg1 arg2 harg2 arg3 harg3 arg4 harg4) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The arrays as the region finds them; after the body at point `t` each input's buffer at its block and the output's
    at `out3` of the three input blocks; the invariant the scoped rest and the generator register, untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) postOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- The frame: @main runs to the end and both argument arrays end as launched (neither is an array of the pipeline, and
    no host line writes either). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.Kernel.Frame

end
-- ==== Proof.FrameHostIdeal.lean ====
/-
  The host side of the frame of `Cert.KernelIdeal`: @main is seven stretches of host lines (the coordinates rounded, clamped
  and transposed), one pallas_call, and five stretches of host lines (the person means, variances and hinge sums).

  * `V0`: the buffers' contents when the region is entered, the fold of the earlier lines over the launch memory.
  * `hmain`: @main reduces to the region continued by the later lines.
  * No line writes an argument array, and no later line writes an array the pipeline stages: every line writes only
    its own result buffer, and the buffers are pairwise distinct references (decided reference by reference).
-/
import proofs.«159086_j30863634989288_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The stretches of host lines before the region, -/
abbrev preOps : List (List (HloOp τ sig (Elt F))) :=
  [hostOps0, hostOps0_1, hostOps0_2, hostOps0_3, hostOps0_4, hostOps0_5, hostOps0_6]
/-- and after it. -/
abbrev postOps : List (List (HloOp τ sig (Elt F))) :=
  [hostOps1, hostOps1_1, hostOps1_2, hostOps1_3, hostOps1_4]

/-- Core `c`'s buffer contents when the region is entered: the earlier lines folded over the launch memory. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-! ## No line allocates -/

theorem preOps_fresh : (preOps (F := F)).Forall fun ops => ops.Forall fun op => op.fresh = ∅ := by
  simp only [List.Forall]; repeat' constructor
theorem postOps_fresh : (postOps (F := F)).Forall fun ops => ops.Forall fun op => op.fresh = ∅ := by
  simp only [List.Forall]; repeat' constructor

theorem preOps_sub : (preOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub⟩
theorem postOps_sub : (postOps (F := F)).Forall fun ops => ops.Forall fun op => op.bufs ⊆ StableHlo.tcRefs τ sig := by
  simp only [List.Forall]
  exact ⟨hostOps1_sub, hostOps1_1_sub, hostOps1_2_sub, hostOps1_3_sub, hostOps1_4_sub⟩

/-! ## @main around the region -/

/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps (F := F)).map StableHlo.seq)) :=
  Pipeline.hmain_around cfgs 0 defs₀ 𝒱₀ m main preOps postOps preOps_sub preOps_fresh main_chain

/-! ## What the lines write -/

/-- A line that writes neither argument array nor any of the four arrays the pipeline stages. -/
def Keeps (op : HloOp τ sig (Elt F)) : Prop :=
  Proc.devRef .tc main_arg0 ∉ op.writes ∧ Proc.devRef .tc main_arg1 ∉ op.writes
    ∧ Proc.devRef .tc main_v0 ∉ op.writes ∧ Proc.devRef .tc main_v24 ∉ op.writes
    ∧ Proc.devRef .tc main_v23 ∉ op.writes ∧ Proc.devRef .tc main_v25 ∉ op.writes

/-- A line that writes neither argument array. -/
def KeepsArgs (op : HloOp τ sig (Elt F)) : Prop :=
  Proc.devRef .tc main_arg0 ∉ op.writes ∧ Proc.devRef .tc main_arg1 ∉ op.writes

local macro "distinct_results" : tactic => `(tactic| (
  simp only [List.Forall, Keeps, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)))

theorem pre0_keeps : (hostOps0 : List (HloOp τ sig (Elt F))).Forall KeepsArgs := by distinct_results
theorem pre1_keeps : (hostOps0_1 : List (HloOp τ sig (Elt F))).Forall KeepsArgs := by distinct_results
theorem pre2_keeps : (hostOps0_2 : List (HloOp τ sig (Elt F))).Forall KeepsArgs := by distinct_results
theorem pre3_keeps : (hostOps0_3 : List (HloOp τ sig (Elt F))).Forall KeepsArgs := by distinct_results
theorem pre4_keeps : (hostOps0_4 : List (HloOp τ sig (Elt F))).Forall KeepsArgs := by distinct_results
theorem pre5_keeps : (hostOps0_5 : List (HloOp τ sig (Elt F))).Forall KeepsArgs := by distinct_results
theorem pre6_keeps : (hostOps0_6 : List (HloOp τ sig (Elt F))).Forall KeepsArgs := by distinct_results

theorem post0_keeps : (hostOps1 : List (HloOp τ sig (Elt F))).Forall Keeps := by distinct_results
theorem post1_keeps : (hostOps1_1 : List (HloOp τ sig (Elt F))).Forall Keeps := by distinct_results
theorem post2_keeps : (hostOps1_2 : List (HloOp τ sig (Elt F))).Forall Keeps := by distinct_results
theorem post3_keeps : (hostOps1_3 : List (HloOp τ sig (Elt F))).Forall Keeps := by distinct_results
theorem post4_keeps : (hostOps1_4 : List (HloOp τ sig (Elt F))).Forall Keeps := by distinct_results

/-- Every line before the region leaves the argument arrays alone. -/
theorem pre_keeps : ∀ op ∈ List.flatten (preOps (F := F)), KeepsArgs op := by
  intro op hop
  simp only [preOps, List.mem_flatten, List.mem_cons, List.mem_nil_iff, or_false] at hop
  obtain ⟨ops, hops, hop⟩ := hop
  rcases hops with rfl | rfl | rfl | rfl | rfl | rfl | rfl
  · exact (List.forall_iff_forall_mem.mp pre0_keeps) op hop
  · exact (List.forall_iff_forall_mem.mp pre1_keeps) op hop
  · exact (List.forall_iff_forall_mem.mp pre2_keeps) op hop
  · exact (List.forall_iff_forall_mem.mp pre3_keeps) op hop
  · exact (List.forall_iff_forall_mem.mp pre4_keeps) op hop
  · exact (List.forall_iff_forall_mem.mp pre5_keeps) op hop
  · exact (List.forall_iff_forall_mem.mp pre6_keeps) op hop

/-- Every line after the region leaves the argument arrays and the pipeline's arrays alone. -/
theorem post_keeps : ∀ ops ∈ (postOps (F := F)), ∀ op ∈ ops, Keeps op := by
  intro ops hops op hop
  simp only [postOps, List.mem_cons, List.mem_nil_iff, or_false] at hops
  rcases hops with rfl | rfl | rfl | rfl | rfl
  · exact (List.forall_iff_forall_mem.mp post0_keeps) op hop
  · exact (List.forall_iff_forall_mem.mp post1_keeps) op hop
  · exact (List.forall_iff_forall_mem.mp post2_keeps) op hop
  · exact (List.forall_iff_forall_mem.mp post3_keeps) op hop
  · exact (List.forall_iff_forall_mem.mp post4_keeps) op hop

theorem post_keeps_flat : ∀ op ∈ List.flatten (postOps (F := F)), Keeps op := by
  intro op hop
  obtain ⟨ops, hops, hop⟩ := List.mem_flatten.mp hop
  exact post_keeps ops hops op hop

/-! ## The later lines, as the frame run wants them -/

/-- The later lines touch only unscoped TensorCore buffers (nothing is prefetched, so those are the pipeline's arrays
    and the buffers that bypass the region). -/
theorem sfx_sub : ∀ ops ∈ (postOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp postOps_sub) ops hops)) op hop)

/-- They allocate nothing. -/
theorem sfx_fresh : ∀ ops ∈ (postOps (F := F)), ∀ op ∈ ops, op.fresh = ∅ := by
  intro ops hops op hop
  exact (List.forall_iff_forall_mem.mp ((List.forall_iff_forall_mem.mp postOps_fresh) ops hops)) op hop

/-- And write no array of the pipeline. -/
theorem sfx_keeps : ∀ ops ∈ (postOps (F := F)), ∀ op ∈ ops,
    ∀ w, Proc.devRef .tc (Pipeline.arrRef spec0 w) ∉ op.writes := by
  intro ops hops op hop w
  have h := post_keeps ops hops op hop
  fin_cases w
  · exact h.2.2.1
  · exact h.2.2.2.1
  · exact h.2.2.2.2.1
  · exact h.2.2.2.2.2

/-! ## The argument arrays, at the region's entry and at the end -/

theorem V_main_arg0 (c : Dev nD) : V m c main_arg0 = m ((c : Thread nD τ).loc main_arg0) :=
  StableHlo.after_of_forall_not_mem (b := Proc.devRef .tc main_arg0) _ _ fun op hop => (pre_keeps op hop).1
theorem V_main_arg1 (c : Dev nD) : V m c main_arg1 = m ((c : Thread nD τ).loc main_arg1) :=
  StableHlo.after_of_forall_not_mem (b := Proc.devRef .tc main_arg1) _ _ fun op hop => (pre_keeps op hop).2

/-- No later line writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) postOps c main_arg0 = m ((c : Thread nD τ).loc main_arg0) := by
  unfold Pipeline.afterTail₀
  rw [StableHlo.after_of_forall_not_mem (b := Proc.devRef .tc main_arg0) _ _ fun op hop => (post_keeps_flat op hop).1,
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) postOps c main_arg1 = m ((c : Thread nD τ).loc main_arg1) := by
  unfold Pipeline.afterTail₀
  rw [StableHlo.after_of_forall_not_mem (b := Proc.devRef .tc main_arg1) _ _ fun op hop => (post_keeps_flat op hop).2.1,
    Pipeline.withArrays_of_ne _ c (V0 m c) _ main_arg1 (by exact (by decide : ∀ w, Pipeline.arrRef spec0 w ≠ main_arg1))]
  exact V_main_arg1 m c

end Cert.KernelIdeal.Frame

end
-- ==== Proof.FrameBodyIdeal.lean ====
/-
  The frame of `Cert.KernelIdeal`: the pallas_call's body run once at a generic grid point, and the launch around it.

  The body loads its three input blocks whole (eight images' heatmaps [8,17,128,128] and the two clamped coordinate
  blocks [8,17,10]), loads the output block (unused), and stores ONE value over the whole output block [8,17,10]: the
  skeleton's payload `k0_pay1` of the three loaded blocks. So after the body the output's staging buffer holds that
  payload (`out3`), the inputs' buffers are as they were, and the pipeline writes the block back at every point.
  The launch is the library's frame run for a region continued by host lines.
-/
import proofs.«159086_j30863634989288_1_alg».proof.Proof.FrameHostIdeal
import proofs.«159086_j30863634989288_1_alg».proof.Proof.Gen.KernelIdeal.Skeleton
import proofs.«159086_j30863634989288_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point (each is fetched at every point and the body
    leaves it in place). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each block whole -/

abbrev rHeat : Rect S8x17x128x128 := Rect.unit (s := S8x17x128x128) ![0, 0, 0, 0] S8x17x128x128.size inb_S8x17x128x128_S8x17x128x128_0_0_0_0
abbrev rCoord : Rect S8x17x10 := Rect.unit (s := S8x17x10) ![0, 0, 0] S8x17x10.size inb_S8x17x10_S8x17x10_0_0_0

/-- The output's staging buffer after the body: its one store, of the payload of the three loaded blocks. -/
def out3 (x0 : Vec F S8x17x128x128 .f32) (x1 : Vec F S8x17x10 .i32) (x2 : Vec F S8x17x10 .i32) : Vec F S8x17x10 .f32 :=
  View.canon [⟨rCoord, k0_pay1 (View.ld x0 rHeat) (View.ld x1 rCoord) (View.ld x2 rCoord)⟩]

/-- The one store covers the block. -/
theorem cover3 (p0 : Vec F S8x17x10 .f32) (y : S8x17x10.Idx) :
    ∃ pc ∈ ([⟨rCoord, p0⟩] : List (View.Piece (Elt F) S8x17x10 .f32)), y ∈ pc.1.set :=
  View.cover_of_tiled [⟨rCoord, p0⟩] S8x17x10.size (by rfl) y

/-! ## The body's triple -/

set_option maxHeartbeats 1000000 in
/-- The body on whole staging memrefs, the inputs' at contents `x0 x1 x2` and the output's at anything, runs to the
    continuation holding the inputs' as they were and the output's at `out3 x0 x1 x2`. -/
theorem sound_kernel (c : Dev nD) (E : Set ℕ) (i : grid0.Coords) (arg1 : Memref sig .tc .vmem S8x17x128x128 .f32) (harg1 : arg1.IsWhole) (arg2 : Memref sig .tc .vmem S8x17x10 .i32) (harg2 : arg2.IsWhole) (arg3 : Memref sig .tc .vmem S8x17x10 .i32) (harg3 : arg3.IsWhole) (arg4 : Memref sig .tc .vmem S8x17x10 .f32) (harg4 : arg4.IsWhole)
    (x0 : Vec F S8x17x128x128 .f32) (x1 : Vec F S8x17x10 .i32) (x2 : Vec F S8x17x10 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__gather_kernel i arg1 harg1 arg2 harg2 arg3 harg3 arg4 harg4) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The arrays as the region finds them; after the body at point `t` each input's buffer at its block and the output's
    at `out3` of the three input blocks; the invariant the scoped rest and the generator register, untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) postOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- The frame: @main runs to the end and both argument arrays end as launched (neither is an array of the pipeline, and
    no host line writes either). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Frame

end
-- ==== Proof.RefDefs.lean ====
/-
  The reference's two results, cut at the gathered embeddings.

  The reference rounds the ground-truth coordinates `gt / 4` to integers (`coords`), takes the x and y components
  (`xRaw`, `yRaw`), marks a keypoint valid when both lie in [0, 128) (`mask`, as 0/1 floats), clamps both to [0, 127]
  (`clip`), and gathers `heat[n, k, yc, xc]` at the start indices `(n, k, yc, xc)` (`startIdx`: each component passed
  through the negative-index wrap `v < 0 ? v + size : v`; `gathered`). Everything after that is a function of the
  gathered values and the mask alone: `within` (the mean over images of the persons' masked variances) and `across`
  (the mean over images of the pairwise hinge sums).
-/
import proofs.«159086_j30863634989288_1_alg».proof.Proof.Gen.ReferenceIdeal
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The heatmaps with the batch and time axes merged: [128, 17, 128, 128]. -/
def heat (a0 : (⟨S16x8x17x128x128, .f32⟩ : BufTy).Contents (Elt F)) : FVec F S128x17x128x128 .f32 :=
  shapeCast _ a0 shapeCasts_S16x8x17x128x128_S128x17x128x128

/-- The ground-truth coordinates over the feature stride, rounded to the nearest even integer, as words: [128, 10, 17, 2]. -/
def coords (a1 : (⟨S16x8x10x17x2, .f32⟩ : BufTy).Contents (Elt F)) : IVec S128x10x17x2 32 :=
  fptosi 32 (Host.roundeven (Host.divf (shapeCast _ a1 shapeCasts_S16x8x10x17x2_S128x10x17x2) (broadcastInDim S128x10x17x2 ![] bcast_S_S128x10x17x2 (constant S_ .f32 0x40800000#32))))

/-- The x components [128, 10, 17], -/
def xRaw (a1 : (⟨S16x8x10x17x2, .f32⟩ : BufTy).Contents (Elt F)) : IVec S128x10x17 32 :=
  shapeCast _ (extractStridedSlice S128x10x17x1 ![0, 0, 0, 0] (coords a1) slices_S128x10x17x2_S128x10x17x1_0_0_0_0) shapeCasts_S128x10x17x1_S128x10x17
/-- and the y components. -/
def yRaw (a1 : (⟨S16x8x10x17x2, .f32⟩ : BufTy).Contents (Elt F)) : IVec S128x10x17 32 :=
  shapeCast _ (extractStridedSlice S128x10x17x1 ![0, 0, 0, 1] (coords a1) slices_S128x10x17x2_S128x10x17x1_0_0_0_1) shapeCasts_S128x10x17x1_S128x10x17

/-- Clamped into [0, 127] as signed words: `min 127 (max 0 v)`. -/
def clip (v : IVec S128x10x17 32) : IVec S128x10x17 32 :=
  minsi (broadcastInDim S128x10x17 ![] bcast_S_S128x10x17 (id (constantI S_ 32 127#32))) (maxsi (broadcastInDim S128x10x17 ![] bcast_S_S128x10x17 (id (constantI S_ 32 0#32))) v)

/-- The negative-index wrap of an index into an axis of extent 128: `v < 0 ? v + 128 : v`. -/
def wrap128 (v : IVec S128x10x17 32) : IVec S128x10x17 32 :=
  select (cmpi .slt v (broadcastInDim S128x10x17 ![] bcast_S_S128x10x17 (constantI S_ 32 0#32))) (addi v (broadcastInDim S128x10x17 ![] bcast_S_S128x10x17 (constantI S_ 32 128#32))) v

/-- A [128, 10, 17] array as a [128, 10, 17, 1] one. -/
def lift1 (v : IVec S128x10x17 32) : IVec S128x10x17x1 32 :=
  broadcastInDim S128x10x17x1 ![0, 1, 2] bcast_S128x10x17_S128x10x17x1_0_1_2 v

/-- The image index `n` at every (n, p, k), wrapped, -/
def idxN : IVec S128x10x17x1 32 :=
  broadcastInDim S128x10x17x1 ![0, 1, 2] bcast_S128x10x17_S128x10x17x1_0_1_2 (broadcastInDim S128x10x17 ![0, 1, 2] bcast_S128x1x1_S128x10x17_0_1_2 (select (cmpi .slt (broadcastInDim S128x1x1 ![0] bcast_S128_S128x1x1_0 (iotaInDim S128 32 0)) (broadcastInDim S128x1x1 ![] bcast_S_S128x1x1 (constantI S_ 32 0#32))) (addi (broadcastInDim S128x1x1 ![0] bcast_S128_S128x1x1_0 (iotaInDim S128 32 0)) (broadcastInDim S128x1x1 ![] bcast_S_S128x1x1 (constantI S_ 32 128#32))) (broadcastInDim S128x1x1 ![0] bcast_S128_S128x1x1_0 (iotaInDim S128 32 0))))
/-- and the keypoint index `k`. -/
def idxK : IVec S128x10x17x1 32 :=
  broadcastInDim S128x10x17x1 ![0, 1, 2] bcast_S128x10x17_S128x10x17x1_0_1_2 (broadcastInDim S128x10x17 ![0, 1, 2] bcast_S1x1x17_S128x10x17_0_1_2 (select (cmpi .slt (broadcastInDim S1x1x17 ![2] bcast_S17_S1x1x17_2 (iotaInDim S17 32 0)) (broadcastInDim S1x1x17 ![] bcast_S_S1x1x17 (constantI S_ 32 0#32))) (addi (broadcastInDim S1x1x17 ![2] bcast_S17_S1x1x17_2 (iotaInDim S17 32 0)) (broadcastInDim S1x1x17 ![] bcast_S_S1x1x17 (constantI S_ 32 17#32))) (broadcastInDim S1x1x17 ![2] bcast_S17_S1x1x17_2 (iotaInDim S17 32 0))))

/-- The start indices (n, k, yc, xc) of the gather: [128, 10, 17, 4]. -/
def startIdx (yc xc : IVec S128x10x17 32) : IVec S128x10x17x4 32 :=
  concatenate S128x10x17x4 3 [⟨S128x10x17x1, idxN⟩, ⟨S128x10x17x1, idxK⟩, ⟨S128x10x17x1, (lift1 (wrap128 yc))⟩, ⟨S128x10x17x1, (lift1 (wrap128 xc))⟩] concatenates_S128x10x17x1_S128x10x17x1_S128x10x17x1_S128x10x17x1_S128x10x17x4_d3

/-- The gathered embeddings [128, 10, 17]. -/
def gathered (a0 : (⟨S16x8x17x128x128, .f32⟩ : BufTy).Contents (Elt F)) (a1 : (⟨S16x8x10x17x2, .f32⟩ : BufTy).Contents (Elt F)) : FVec F S128x10x17 .f32 :=
  Host.gather gather_S128x17x128x128_S128x10x17x4_S128x10x17_n_0123_n_n_0123_3_1111 (heat a0) (startIdx (clip (yRaw a1)) (clip (xRaw a1)))

/-- The validity mask as 0/1 floats: 0 ≤ x < 128 and 0 ≤ y < 128. -/
def mask (a1 : (⟨S16x8x10x17x2, .f32⟩ : BufTy).Contents (Elt F)) : FVec F S128x10x17 .f32 :=
  uitofp (F := F) .f32 (andi (andi (andi (cmpi .sge (xRaw a1) (broadcastInDim S128x10x17 ![] bcast_S_S128x10x17 (constantI S_ 32 0#32))) (cmpi .slt (xRaw a1) (broadcastInDim S128x10x17 ![] bcast_S_S128x10x17 (constantI S_ 32 128#32)))) (cmpi .sge (yRaw a1) (broadcastInDim S128x10x17 ![] bcast_S_S128x10x17 (constantI S_ 32 0#32)))) (cmpi .slt (yRaw a1) (broadcastInDim S128x10x17 ![] bcast_S_S128x10x17 (constantI S_ 32 128#32))))

/-- The first result from the gathered values and the mask: per person the masked variance about the masked mean (zero for a
    person with no valid keypoint), averaged over the ten persons and then over the 128 images. -/
def within (vals mask : FVec F S128x10x17 .f32) : FVec F S_ .f32 :=
  Host.divf (Host.reduceAdd (mulf (Host.divf (Host.reduceAdd (select (cmpf (F := F) .ogt (Host.reduceAdd mask (constant S_ .f32 0x00000000#32) reducesTo_S128x10x17_S128x10_d2 h_S_) (broadcastInDim S128x10 ![] bcast_S_S128x10 (constant S_ .f32 0x00000000#32))) (Host.divf (Host.reduceAdd (mulf (mulf (subf vals (broadcastInDim S128x10x17 ![0, 1, 2] bcast_S128x10x1_S128x10x17_0_1_2 (broadcastInDim S128x10x1 ![0, 1] bcast_S128x10_S128x10x1_0_1 (Host.divf (Host.reduceAdd (mulf vals mask) (constant S_ .f32 0x00000000#32) reducesTo_S128x10x17_S128x10_d2 h_S_) (maximumf (Host.reduceAdd mask (constant S_ .f32 0x00000000#32) reducesTo_S128x10x17_S128x10_d2 h_S_) (broadcastInDim S128x10 ![] bcast_S_S128x10 (constant S_ .f32 0x3F800000#32))))))) (subf vals (broadcastInDim S128x10x17 ![0, 1, 2] bcast_S128x10x1_S128x10x17_0_1_2 (broadcastInDim S128x10x1 ![0, 1] bcast_S128x10_S128x10x1_0_1 (Host.divf (Host.reduceAdd (mulf vals mask) (constant S_ .f32 0x00000000#32) reducesTo_S128x10x17_S128x10_d2 h_S_) (maximumf (Host.reduceAdd mask (constant S_ .f32 0x00000000#32) reducesTo_S128x10x17_S128x10_d2 h_S_) (broadcastInDim S128x10 ![] bcast_S_S128x10 (constant S_ .f32 0x3F800000#32)))))))) mask) (constant S_ .f32 0x00000000#32) reducesTo_S128x10x17_S128x10_d2 h_S_) (maximumf (Host.reduceAdd mask (constant S_ .f32 0x00000000#32) reducesTo_S128x10x17_S128x10_d2 h_S_) (broadcastInDim S128x10 ![] bcast_S_S128x10 (constant S_ .f32 0x3F800000#32)))) (broadcastInDim S128x10 ![] bcast_S_S128x10 (id (constant S_ .f32 0x00000000#32)))) (constant S_ .f32 0x00000000#32) reducesTo_S128x10_S128_d1 h_S_) (broadcastInDim S128 ![] bcast_S_S128 (constant S_ .f32 0x41200000#32))) (broadcastInDim S128 ![] bcast_S_S128 (constant S_ .f32 0x3F800000#32))) (constant S_ .f32 0x00000000#32) reducesTo_S128_S_d0 h_S_) (constant S_ .f32 0x43000000#32)

/-- The second result: per image the hinge `max (1 - |e_j - e_i|) 0` summed over the pairs of distinct valid persons over
    the number of such pairs (zero when there is none), averaged over the 128 images. -/
def across (vals mask : FVec F S128x10x17 .f32) : FVec F S_ .f32 :=
  Host.divf (Host.reduceAdd (mulf (select (cmpf (F := F) .ogt (Host.reduceAdd (mulf (mulf (broadcastInDim S128x10x10 ![0, 1, 2] bcast_S128x10x1_S128x10x10_0_1_2 (broadcastInDim S128x10x1 ![0, 1] bcast_S128x10_S128x10x1_0_1 (uitofp (F := F) .f32 (cmpf (F := F) .ogt (Host.reduceAdd mask (constant S_ .f32 0x00000000#32) reducesTo_S128x10x17_S128x10_d2 h_S_) (broadcastInDim S128x10 ![] bcast_S_S128x10 (constant S_ .f32 0x00000000#32)))))) (broadcastInDim S128x10x10 ![0, 1, 2] bcast_S128x1x10_S128x10x10_0_1_2 (broadcastInDim S128x1x10 ![0, 2] bcast_S128x10_S128x1x10_0_2 (uitofp (F := F) .f32 (cmpf (F := F) .ogt (Host.reduceAdd mask (constant S_ .f32 0x00000000#32) reducesTo_S128x10x17_S128x10_d2 h_S_) (broadcastInDim S128x10 ![] bcast_S_S128x10 (constant S_ .f32 0x00000000#32))))))) (broadcastInDim S128x10x10 ![0, 1, 2] bcast_S1x10x10_S128x10x10_0_1_2 (broadcastInDim S1x10x10 ![1, 2] bcast_S10x10_S1x10x10_1_2 (subf (broadcastInDim S10x10 ![] bcast_S_S10x10 (constant S_ .f32 0x3F800000#32)) (uitofp (F := F) .f32 (cmpi .eq (addi (iotaInDim S10x10 32 0) (broadcastInDim S10x10 ![] bcast_S_S10x10 (constantI S_ 32 0#32))) (iotaInDim S10x10 32 1))))))) (constant S_ .f32 0x00000000#32) reducesTo_S128x10x10_S128_d1_2 h_S_) (broadcastInDim S128 ![] bcast_S_S128 (constant S_ .f32 0x00000000#32))) (Host.divf (Host.reduceAdd (mulf (maximumf (subf (broadcastInDim S128x10x10 ![] bcast_S_S128x10x10 (constant S_ .f32 0x3F800000#32)) (Host.absf (subf (broadcastInDim S128x10x10 ![0, 1, 2] bcast_S128x1x10_S128x10x10_0_1_2 (broadcastInDim S128x1x10 ![0, 2] bcast_S128x10_S128x1x10_0_2 (Host.divf (Host.reduceAdd (mulf vals mask) (constant S_ .f32 0x00000000#32) reducesTo_S128x10x17_S128x10_d2 h_S_) (maximumf (Host.reduceAdd mask (constant S_ .f32 0x00000000#32) reducesTo_S128x10x17_S128x10_d2 h_S_) (broadcastInDim S128x10 ![] bcast_S_S128x10 (constant S_ .f32 0x3F800000#32)))))) (broadcastInDim S128x10x10 ![0, 1, 2] bcast_S128x10x1_S128x10x10_0_1_2 (broadcastInDim S128x10x1 ![0, 1] bcast_S128x10_S128x10x1_0_1 (Host.divf (Host.reduceAdd (mulf vals mask) (constant S_ .f32 0x00000000#32) reducesTo_S128x10x17_S128x10_d2 h_S_) (maximumf (Host.reduceAdd mask (constant S_ .f32 0x00000000#32) reducesTo_S128x10x17_S128x10_d2 h_S_) (broadcastInDim S128x10 ![] bcast_S_S128x10 (constant S_ .f32 0x3F800000#32))))))))) (broadcastInDim S128x10x10 ![] bcast_S_S128x10x10 (constant S_ .f32 0x00000000#32))) (mulf (mulf (broadcastInDim S128x10x10 ![0, 1, 2] bcast_S128x10x1_S128x10x10_0_1_2 (broadcastInDim S128x10x1 ![0, 1] bcast_S128x10_S128x10x1_0_1 (uitofp (F := F) .f32 (cmpf (F := F) .ogt (Host.reduceAdd mask (constant S_ .f32 0x00000000#32) reducesTo_S128x10x17_S128x10_d2 h_S_) (broadcastInDim S128x10 ![] bcast_S_S128x10 (constant S_ .f32 0x00000000#32)))))) (broadcastInDim S128x10x10 ![0, 1, 2] bcast_S128x1x10_S128x10x10_0_1_2 (broadcastInDim S128x1x10 ![0, 2] bcast_S128x10_S128x1x10_0_2 (uitofp (F := F) .f32 (cmpf (F := F) .ogt (Host.reduceAdd mask (constant S_ .f32 0x00000000#32) reducesTo_S128x10x17_S128x10_d2 h_S_) (broadcastInDim S128x10 ![] bcast_S_S128x10 (constant S_ .f32 0x00000000#32))))))) (broadcastInDim S128x10x10 ![0, 1, 2] bcast_S1x10x10_S128x10x10_0_1_2 (broadcastInDim S1x10x10 ![1, 2] bcast_S10x10_S1x10x10_1_2 (subf (broadcastInDim S10x10 ![] bcast_S_S10x10 (constant S_ .f32 0x3F800000#32)) (uitofp (F := F) .f32 (cmpi .eq (addi (iotaInDim S10x10 32 0) (broadcastInDim S10x10 ![] bcast_S_S10x10 (constantI S_ 32 0#32))) (iotaInDim S10x10 32 1)))))))) (constant S_ .f32 0x00000000#32) reducesTo_S128x10x10_S128_d1_2 h_S_) (maximumf (Host.reduceAdd (mulf (mulf (broadcastInDim S128x10x10 ![0, 1, 2] bcast_S128x10x1_S128x10x10_0_1_2 (broadcastInDim S128x10x1 ![0, 1] bcast_S128x10_S128x10x1_0_1 (uitofp (F := F) .f32 (cmpf (F := F) .ogt (Host.reduceAdd mask (constant S_ .f32 0x00000000#32) reducesTo_S128x10x17_S128x10_d2 h_S_) (broadcastInDim S128x10 ![] bcast_S_S128x10 (constant S_ .f32 0x00000000#32)))))) (broadcastInDim S128x10x10 ![0, 1, 2] bcast_S128x1x10_S128x10x10_0_1_2 (broadcastInDim S128x1x10 ![0, 2] bcast_S128x10_S128x1x10_0_2 (uitofp (F := F) .f32 (cmpf (F := F) .ogt (Host.reduceAdd mask (constant S_ .f32 0x00000000#32) reducesTo_S128x10x17_S128x10_d2 h_S_) (broadcastInDim S128x10 ![] bcast_S_S128x10 (constant S_ .f32 0x00000000#32))))))) (broadcastInDim S128x10x10 ![0, 1, 2] bcast_S1x10x10_S128x10x10_0_1_2 (broadcastInDim S1x10x10 ![1, 2] bcast_S10x10_S1x10x10_1_2 (subf (broadcastInDim S10x10 ![] bcast_S_S10x10 (constant S_ .f32 0x3F800000#32)) (uitofp (F := F) .f32 (cmpi .eq (addi (iotaInDim S10x10 32 0) (broadcastInDim S10x10 ![] bcast_S_S10x10 (constantI S_ 32 0#32))) (iotaInDim S10x10 32 1))))))) (constant S_ .f32 0x00000000#32) reducesTo_S128x10x10_S128_d1_2 h_S_) (broadcastInDim S128 ![] bcast_S_S128 (constant S_ .f32 0x3F800000#32)))) (broadcastInDim S128 ![] bcast_S_S128 (id (constant S_ .f32 0x00000000#32)))) (broadcastInDim S128 ![] bcast_S_S128 (constant S_ .f32 0x3F800000#32))) (constant S_ .f32 0x00000000#32) reducesTo_S128_S_d0 h_S_) (constant S_ .f32 0x43000000#32)

end Cert.ReferenceIdeal.RefValue

end
-- ==== Proof.RefValue.lean ====
/-
  The reference run's two result terms are `within` and `across` of the gathered embeddings and the validity mask: the
  run's composed terms and these definitions unfold to the same operations of the two argument arrays.
-/
import proofs.«159086_j30863634989288_1_alg».proof.Proof.RefRun
import proofs.«159086_j30863634989288_1_alg».proof.Proof.RefDefs

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference run's first result is `within` of the gathered values and the mask, -/
theorem res0_eq (m : (ℓ : Loc nD τ sig) → Buf (Elt F) ℓ) (c : Dev nD) :
    Value.res_main_v116 m c = within (gathered (m ((c.tc : Thread nD τ).loc main_arg0)) (m ((c.tc : Thread nD τ).loc main_arg1))) (mask (m ((c.tc : Thread nD τ).loc main_arg1))) := rfl

/-- and its second is `across` of them. -/
theorem res1_eq (m : (ℓ : Loc nD τ sig) → Buf (Elt F) ℓ) (c : Dev nD) :
    Value.res_main_v120 m c = across (gathered (m ((c.tc : Thread nD τ).loc main_arg0)) (m ((c.tc : Thread nD τ).loc main_arg1))) (mask (m ((c.tc : Thread nD τ).loc main_arg1))) := rfl

end Cert.ReferenceIdeal.RefValue

end
-- ==== Proof.SelectPayload.lean ====
/-
  The kernel body's arithmetic read at one index. The body merges the image axis and the joint axis of the heatmaps
  [8, 17, 128, 128] into rows b * 17 + k of [136, 128, 128], and likewise the two coordinate arrays [8, 17, 10] into
  [136, 10]. It compares a lane counter with the row coordinate to get a 0/1 array over [136, 10, 128], multiplies it
  into the heatmaps along their row axis (a batched product into a zero accumulator), multiplies the result by the 0/1
  array of the column coordinate, sums over the lanes and splits the rows back into image and joint. At the extended
  reals every product with 0 is 0 and with 1 is the other factor, so each of the two sums keeps exactly one term and the
  value at (b, k, p) is the heatmap of image b and joint k at the named row and column.
-/
import proofs.«159086_j30863634989288_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Select

open Idealize.ShloMosaic Idealize.ShloMosaic.ValueIdx Cert.KernelIdeal Cert.KernelIdeal.Gen
open scoped BigOperators

/-! ## The 0/1 selector word -/

/-- For a lane number below 128, the 32-bit word of that number equals a word `v` exactly when `v` reads that number. -/
theorem ofNat_eq_iff (v : BitVec 32) (h : Fin 128) : BitVec.ofNat 32 h.val = v ↔ v.toNat = h.val := by
  constructor
  · rintro rfl
    rw [BitVec.toNat_ofNat]
    have := h.isLt
    omega
  · intro hv
    apply BitVec.eq_of_toNat_eq
    rw [BitVec.toNat_ofNat, hv]
    have := h.isLt
    omega

/-- The comparison "lane number equals `v`", widened to 32 bits and converted to a float, is `1` on the lane `v` names
    and `0` on every other lane. -/
theorem selector_word (v : BitVec 32) (h : Fin 128) :
    (FloatOps.sitofp (F := Ideal) .f32 ((IntOp.cmpi .eq (BitVec.ofNat 32 h.val) v).setWidth 32) : Ideal .f32)
      = if v.toNat = h.val then 1 else 0 := by
  by_cases hv : v.toNat = h.val
  · rw [if_pos hv]
    have he : BitVec.ofNat 32 h.val = v := (ofNat_eq_iff v h).mpr hv
    have hc : IntOp.cmpi .eq (BitVec.ofNat 32 h.val) v = 1#1 := by
      unfold IntOp.cmpi
      simp [he]
    rw [hc]
    show (((BitVec.setWidth 32 1#1).toInt : ℝ) : EReal) = 1
    have : (BitVec.setWidth 32 1#1).toInt = 1 := by decide
    rw [this]
    simp
  · rw [if_neg hv]
    have he : ¬ BitVec.ofNat 32 h.val = v := fun he => hv ((ofNat_eq_iff v h).mp he)
    have hc : IntOp.cmpi .eq (BitVec.ofNat 32 h.val) v = 0#1 := by
      unfold IntOp.cmpi
      have hb : (BitVec.ofNat 32 h.val == v) = false := beq_eq_false_iff_ne.mpr he
      simp only [hb]
      rfl
    rw [hc]
    show (((BitVec.setWidth 32 0#1).toInt : ℝ) : EReal) = 0
    have : (BitVec.setWidth 32 0#1).toInt = 0 := by decide
    rw [this]
    simp

/-! ## The merged leading axis and the layout operations at an index -/

/-- Row `b * 17 + k` of the axis that merges the image axis with the joint axis. -/
def row (b : Fin 8) (k : Fin 17) : Fin 136 :=
  ⟨b.val * 17 + k.val, by have := b.isLt; have := k.isLt; omega⟩

theorem row_val (b : Fin 8) (k : Fin 17) : (row b k).val = b.val * 17 + k.val := rfl

section Layout
variable {α : Type}

/-- The heatmaps with the two leading axes merged, read at row `b * 17 + k`: image `b`, joint `k`. -/
theorem merge4_apply (x : S8x17x128x128.Idx → α) (h : S8x17x128x128.ShapeCasts S136x128x128)
    (b : Fin 8) (k : Fin 17) (i j : Fin 128) :
    shapeCast S136x128x128 x h (ix3 (row b k) i j) = x (ix4 b k i j) :=
  shapeCast_apply x h _ _ (by
    rw [Shape.rowMajor_val_four, Shape.rowMajor_val_three]
    rfl)

/-- The coordinates with the two leading axes merged, read at row `b * 17 + k`. -/
theorem merge3_apply (x : S8x17x10.Idx → α) (h : S8x17x10.ShapeCasts S136x10)
    (b : Fin 8) (k : Fin 17) (p : Fin 10) :
    shapeCast S136x10 x h (ix2 (row b k) p) = x (ix3 b k p) :=
  shapeCast_apply x h _ _ (by
    rw [Shape.rowMajor_val_three, Shape.rowMajor_val_two]
    rfl)

/-- The result split back into image and joint: entry `(b, k, p)` is row `b * 17 + k`, column `p`. -/
theorem split3_apply (x : S136x10.Idx → α) (h : S136x10.ShapeCasts S8x17x10)
    (b : Fin 8) (k : Fin 17) (p : Fin 10) :
    shapeCast S8x17x10 x h (ix3 b k p) = x (ix2 (row b k) p) :=
  shapeCast_apply x h _ _ (by
    rw [Shape.rowMajor_val_three, Shape.rowMajor_val_two]
    rfl)

/-- A trailing unit axis added to the merged coordinates. -/
theorem addLane_apply (x : S136x10.Idx → α) (h : S136x10.ShapeCasts S136x10x1)
    (r : Fin 136) (p : Fin 10) (u : Fin 1) :
    shapeCast S136x10x1 x h (ix3 r p u) = x (ix2 r p) :=
  shapeCast_apply x h _ _ (by
    have hu : u.val = 0 := by omega
    rw [Shape.rowMajor_val_three, Shape.rowMajor_val_two]
    show r.val * 10 + p.val = (r.val * 10 + p.val) * 1 + u.val
    omega)

/-- The unit lane broadcast over the 128 lanes: every lane reads the one entry. -/
theorem lanes_apply (x : S136x10x1.Idx → α) (h : S136x10x1.Broadcasts S136x10x128)
    (r : Fin 136) (p : Fin 10) (l : Fin 128) :
    broadcastTo S136x10x128 x h (ix3 r p l) = x (ix3 r p (0 : Fin 1)) := by
  refine broadcastTo_apply x h (ix3 r p l) (ix3 r p (0 : Fin 1)) fun ax => ?_
  match ax with
  | ⟨0, _⟩ => rfl
  | ⟨1, _⟩ => rfl
  | ⟨2, _⟩ => rfl

end Layout

/-- The lane counter at an index is the lane's number as a 32-bit word. -/
theorem laneIota_apply (h : S136x10x128.Iotas .tc 32 [2]) (r : Fin 136) (p : Fin 10) (l : Fin 128) :
    iota .tc S136x10x128 32 [2] h (ix3 r p l) = BitVec.ofNat 32 l.val :=
  iota_single_apply .tc S136x10x128 32 2 h (ix3 r p l)

/-! ## The batched product at an index

The dimension numbers contract the left operand's lane axis with the right operand's row axis, batch over the merged
leading axis, and keep the left operand's column and the right operand's lane. Per operand axis, the coordinate it reads. -/

theorem lhs_axis0 (i : S136x10x128.Idx) (q : dot_S136x10x128_S136x128x128_S136x10x128_2_1_1_2_0_0.contr.Idx) :
    (dot_S136x10x128_S136x128x128_S136x10x128_2_1_1_2_0_0.lhsIdx i q 0).val = (i 0).val := by
  unfold DotDims.lhsIdx
  rw [dif_pos (show (0 : Fin S136x10x128.rank) ∈ dot_S136x10x128_S136x128x128_S136x10x128_2_1_1_2_0_0.lhsBatch by decide)]
  rfl

theorem lhs_axis1 (i : S136x10x128.Idx) (q : dot_S136x10x128_S136x128x128_S136x10x128_2_1_1_2_0_0.contr.Idx) :
    (dot_S136x10x128_S136x128x128_S136x10x128_2_1_1_2_0_0.lhsIdx i q 1).val = (i 1).val := by
  unfold DotDims.lhsIdx
  rw [dif_neg (show ¬(1 : Fin S136x10x128.rank) ∈ dot_S136x10x128_S136x128x128_S136x10x128_2_1_1_2_0_0.lhsBatch by decide),
    dif_pos (show (1 : Fin S136x10x128.rank) ∈ dot_S136x10x128_S136x128x128_S136x10x128_2_1_1_2_0_0.lhsNonContracting by decide)]
  rfl

theorem lhs_axis2 (i : S136x10x128.Idx) (q : dot_S136x10x128_S136x128x128_S136x10x128_2_1_1_2_0_0.contr.Idx) :
    (dot_S136x10x128_S136x128x128_S136x10x128_2_1_1_2_0_0.lhsIdx i q 2).val = (q ⟨0, by decide⟩).val :=
  dot_S136x10x128_S136x128x128_S136x10x128_2_1_1_2_0_0.lhsIdx_val_of_single rfl i q

theorem rhs_axis0 (i : S136x10x128.Idx) (q : dot_S136x10x128_S136x128x128_S136x10x128_2_1_1_2_0_0.contr.Idx) :
    (dot_S136x10x128_S136x128x128_S136x10x128_2_1_1_2_0_0.rhsIdx i q 0).val = (i 0).val := by
  unfold DotDims.rhsIdx
  rw [dif_pos (show (0 : Fin S136x128x128.rank) ∈ dot_S136x10x128_S136x128x128_S136x10x128_2_1_1_2_0_0.rhsBatch by decide)]
  rfl

theorem rhs_axis1 (i : S136x10x128.Idx) (q : dot_S136x10x128_S136x128x128_S136x10x128_2_1_1_2_0_0.contr.Idx) :
    (dot_S136x10x128_S136x128x128_S136x10x128_2_1_1_2_0_0.rhsIdx i q 1).val = (q ⟨0, by decide⟩).val :=
  dot_S136x10x128_S136x128x128_S136x10x128_2_1_1_2_0_0.rhsIdx_val_of_single rfl i q

theorem rhs_axis2 (i : S136x10x128.Idx) (q : dot_S136x10x128_S136x128x128_S136x10x128_2_1_1_2_0_0.contr.Idx) :
    (dot_S136x10x128_S136x128x128_S136x10x128_2_1_1_2_0_0.rhsIdx i q 2).val = (i 2).val := by
  unfold DotDims.rhsIdx
  rw [dif_neg (show ¬(2 : Fin S136x128x128.rank) ∈ dot_S136x10x128_S136x128x128_S136x10x128_2_1_1_2_0_0.rhsBatch by decide),
    dif_pos (show (2 : Fin S136x128x128.rank) ∈ dot_S136x10x128_S136x128x128_S136x10x128_2_1_1_2_0_0.rhsNonContracting by decide)]
  rfl

/-- The batched product into a zero accumulator, at row `r`, column `p`, lane `w`: the sum over the contracted
    coordinate `h` of the left operand at `(r, p, h)` times the right operand at `(r, h, w)`. -/
theorem product_apply (lhs : FVec Ideal S136x10x128 .bf16) (rhs : FVec Ideal S136x128x128 .bf16)
    (r : Fin 136) (p : Fin 10) (w : Fin 128) :
    matmul dot_S136x10x128_S136x128x128_S136x10x128_2_1_1_2_0_0 none lhs rhs (constant (F := Ideal) S136x10x128 .f32 0x00000000#32) (ix3 r p w)
      = ∑ h : Fin 128, lhs (ix3 r p h) * rhs (ix3 r h w) := by
  simp only [matmul]
  rw [Ideal.matmul_constant_zero_apply, ← Equiv.sum_comp (contrEquiv1 dot_S136x10x128_S136x128x128_S136x10x128_2_1_1_2_0_0 128 rfl rfl).symm]
  refine Finset.sum_congr rfl fun h _ => ?_
  have hk := contrEquiv1_symm_val dot_S136x10x128_S136x128x128_S136x10x128_2_1_1_2_0_0 128 rfl rfl h
  have el : dot_S136x10x128_S136x128x128_S136x10x128_2_1_1_2_0_0.lhsIdx (ix3 r p w) ((contrEquiv1 dot_S136x10x128_S136x128x128_S136x10x128_2_1_1_2_0_0 128 rfl rfl).symm h) = ix3 r p h :=
    funext fun a => Fin.ext (by
      match a with
      | ⟨0, _⟩ => exact lhs_axis0 _ _
      | ⟨1, _⟩ => exact lhs_axis1 _ _
      | ⟨2, _⟩ => exact (lhs_axis2 _ _).trans hk)
  have er : dot_S136x10x128_S136x128x128_S136x10x128_2_1_1_2_0_0.rhsIdx (ix3 r p w) ((contrEquiv1 dot_S136x10x128_S136x128x128_S136x10x128_2_1_1_2_0_0 128 rfl rfl).symm h) = ix3 r h w :=
    funext fun a => Fin.ext (by
      match a with
      | ⟨0, _⟩ => exact rhs_axis0 _ _
      | ⟨1, _⟩ => exact (rhs_axis1 _ _).trans hk
      | ⟨2, _⟩ => exact rhs_axis2 _ _)
  rw [el, er]

/-! ## The sum over the lanes -/

/-- The sum over the lane axis, at row `r`, column `p`: the sum over the 128 lanes of the source at `(r, p, w)`. -/
theorem laneSum_apply (src : FVec Ideal S136x10x128 .f32) (h : S136x10x128.Reduces [2] S136x10)
    (hφ : FKind.Formats .f32) (hacc : (0x00000000#32 : BitVec 32) = 0x00000000#32) (r : Fin 136) (p : Fin 10) :
    multiReduction .add [2] S136x10 src 0x00000000#32 h hφ hacc (ix2 r p) = ∑ w : Fin 128, src (ix3 r p w) := by
  refine (Ideal.multiReduction_add_single src 0x00000000#32 h hφ hacc (ix2 r p)).trans ?_
  refine Finset.sum_congr rfl fun w _ => congrArg src ?_
  funext a
  match a with
  | ⟨0, _⟩ => rfl
  | ⟨1, _⟩ => rfl
  | ⟨2, _⟩ => rfl

/-! ## The selector vector at an index -/

/-- The lane counter compared with a coordinate array spread over the lanes, as a 0/1 float: at row `b * 17 + k`,
    column `p`, lane `l` it is `1` when the coordinate at `(b, k, p)` is `l`, else `0`. -/
theorem selector_apply (c : Vec Ideal S8x17x10 .i32) (hi : S136x10x128.Iotas .tc 32 [2])
    (h0 : S8x17x10.ShapeCasts S8x17x10) (h1 : S8x17x10.ShapeCasts S136x10) (h2 : S136x10.ShapeCasts S136x10x1)
    (h3 : S136x10x1.Broadcasts S136x10x128) (h4 : 1 < 32) (b : Fin 8) (k : Fin 17) (p : Fin 10) (l : Fin 128) :
    (sitofp (F := Ideal) .f32 (extui 32 (cmpi .eq (iota .tc S136x10x128 32 [2] hi)
        (broadcastTo S136x10x128 (shapeCast S136x10x1 (shapeCast S136x10 (shapeCast S8x17x10 c h0) h1) h2) h3)) h4)
      : FVec Ideal S136x10x128 .f32) (ix3 (row b k) p l)
      = if (c (ix3 b k p)).toNat = l.val then 1 else 0 := by
  have hv : broadcastTo S136x10x128 (shapeCast S136x10x1 (shapeCast S136x10 (shapeCast S8x17x10 c h0) h1) h2) h3
      (ix3 (row b k) p l) = c (ix3 b k p) := by
    rw [lanes_apply, addLane_apply, merge3_apply, shapeCast_self]
  show FloatOps.sitofp (F := Ideal) .f32 ((IntOp.cmpi .eq (iota .tc S136x10x128 32 [2] hi (ix3 (row b k) p l))
      (broadcastTo S136x10x128 (shapeCast S136x10x1 (shapeCast S136x10 (shapeCast S8x17x10 c h0) h1) h2) h3
        (ix3 (row b k) p l))).setWidth 32) = _
  rw [laneIota_apply, hv]
  exact selector_word _ l

/-! ## A sum against a 0/1 selector keeps one term

On the extended reals `1 * x = x` and `0 * x = 0` for every `x`, the infinities included, so nothing is asked of `f`. -/

theorem sum_selector_mul (v : BitVec 32) (hv : v.toNat < 128) (f : Fin 128 → EReal) :
    ∑ h : Fin 128, (if v.toNat = h.val then (1 : EReal) else 0) * f h = f ⟨v.toNat, hv⟩ := by
  rw [Finset.sum_eq_single (⟨v.toNat, hv⟩ : Fin 128)]
  · rw [if_pos rfl, one_mul]
  · intro h _ hne
    rw [if_neg (fun e => hne (Fin.ext e.symm)), zero_mul]
  · intro hn
    exact absurd (Finset.mem_univ _) hn

theorem sum_mul_selector (v : BitVec 32) (hv : v.toNat < 128) (f : Fin 128 → EReal) :
    ∑ w : Fin 128, f w * (if v.toNat = w.val then (1 : EReal) else 0) = f ⟨v.toNat, hv⟩ := by
  rw [Finset.sum_eq_single (⟨v.toNat, hv⟩ : Fin 128)]
  · rw [if_pos rfl, mul_one]
  · intro w _ hne
    rw [if_neg (fun e => hne (Fin.ext e.symm)), mul_zero]
  · intro hn
    exact absurd (Finset.mem_univ _) hn

/-! ## The payload at an index -/

/-- The kernel body's value at `(b, k, p)`: the heatmap of image `b`, joint `k` at the row and column the two
    coordinate arrays name there. The row selector contracts the heatmap's rows to the named row; the column selector,
    multiplied in and summed over the lanes, keeps the named column. -/
theorem payload_apply (x0 : Vec Ideal S8x17x128x128 .f32) (yb xb : Vec Ideal S8x17x10 .i32)
    (b : Fin 8) (k : Fin 17) (p : Fin 10)
    (hy : (yb (ix3 b k p)).toNat < 128) (hx : (xb (ix3 b k p)).toNat < 128) :
    k0_pay1 (F := Ideal) x0 yb xb (ix3 b k p)
      = x0 (ix4 b k ⟨(yb (ix3 b k p)).toNat, hy⟩ ⟨(xb (ix3 b k p)).toNat, hx⟩) := by
  unfold k0_pay1
  refine (split3_apply _ _ b k p).trans ?_
  refine (laneSum_apply _ _ _ _ (row b k) p).trans ?_
  refine (Finset.sum_congr rfl (g := fun w : Fin 128 =>
      x0 (ix4 b k ⟨(yb (ix3 b k p)).toNat, hy⟩ w) * (if (xb (ix3 b k p)).toNat = w.val then (1 : EReal) else 0))
    fun w _ => ?_).trans (sum_mul_selector (xb (ix3 b k p)) hx fun w => x0 (ix4 b k ⟨(yb (ix3 b k p)).toNat, hy⟩ w))
  refine (mulf_apply _ _ _).trans ?_
  refine congrArg₂ (· * ·) ?_ (selector_apply xb _ _ _ _ _ _ b k p w)
  refine (product_apply _ _ (row b k) p w).trans ?_
  refine (Finset.sum_congr rfl (g := fun h : Fin 128 =>
      (if (yb (ix3 b k p)).toNat = h.val then (1 : EReal) else 0) * x0 (ix4 b k h w)) fun h _ => ?_).trans
    (sum_selector_mul (yb (ix3 b k p)) hy fun h => x0 (ix4 b k h w))
  refine congrArg₂ (· * ·) ?_ ?_
  · exact (truncf_apply (φ := .f32) (ψ := .bf16) _ _ _).trans (selector_apply yb _ _ _ _ _ _ b k p h)
  · refine (truncf_apply (φ := .f32) (ψ := .bf16) _ _ _).trans ((merge4_apply _ _ b k h w).trans ?_)
    rw [shapeCast_self]

end Cert.KernelIdeal.Select

end
-- ==== Proof.SelectArray.lean ====
/-
  The kernel's output array after the run, at the ideal instance.

  Grid point `t` stages images `8t … 8t+7`: the heatmap block is rows `8t+b` of the heatmap array, the two coordinate
  blocks rows `8t+b` of the (transposed, clamped) coordinate arrays, and the point writes back rows `8t+b` of the
  output. The body's payload at `(b, k, p)` is the heatmap block's entry at row `yc`, lane `xc` of image `b`,
  keypoint `k` (the one-hot row selection and the masked lane sum each keep one term), so what point `t` writes back is
  block `t` of ONE function of the three arrays: `picked x Y X (n, k, p) = x (n, k, Y (n, k, p), X (n, k, p))`. The
  sixteen blocks tile the output array, so it ends holding `picked`.
-/
import proofs.«159086_j30863634989288_1_alg».proof.Proof.FrameBodyIdeal
import proofs.«159086_j30863634989288_1_alg».proof.Proof.SelectPayload
import Idealize.ShloMosaic.Lib.Pipeline.Value
import Idealize.ShloMosaic.Lib.ValueIdx

set_option maxRecDepth 16384

noncomputable section

namespace Cert.KernelIdeal.Select

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (m : (ℓ : Loc nD τ sig) → Buf (Elt Ideal) ℓ)

/-! ## The three arrays the region reads, and the blocks, at their literal types -/

abbrev heatArr (c : Dev nD) : FVec Ideal S128x17x128x128 .f32 := V m c main_v0
abbrev ycArr (c : Dev nD) : IVec S128x17x10 32 := V m c main_v24
abbrev xcArr (c : Dev nD) : IVec S128x17x10 32 := V m c main_v23

abbrev heatBlk (c : Dev nD) (t : Fin cfg0.N) : Vec Ideal S8x17x128x128 .f32 := iblk m c 0 t
abbrev ycBlk (c : Dev nD) (t : Fin cfg0.N) : Vec Ideal S8x17x10 .i32 := iblk m c 1 t
abbrev xcBlk (c : Dev nD) (t : Fin cfg0.N) : Vec Ideal S8x17x10 .i32 := iblk m c 2 t

/-- The entry of `x` at image `n`, keypoint `k`, row `Y (n, k, p)`, column `X (n, k, p)`. -/
def picked (x : FVec Ideal S128x17x128x128 .f32) (Y X : IVec S128x17x10 32)
    (hY : ∀ i, (Y i).toNat < 128) (hX : ∀ i, (X i).toNat < 128) : FVec Ideal S128x17x10 .f32 :=
  fun i => x (ix4 (⟨(i 0).val, (i 0).isLt⟩ : Fin 128) (⟨(i 1).val, (i 1).isLt⟩ : Fin 17) ⟨(Y i).toNat, hY i⟩ ⟨(X i).toNat, hX i⟩)

/-! ## The index maps, decided over the grid: every window moves along the image axis only -/

theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-! ## Each block is rows `8t … 8t+7` of its array -/

theorem heatBlk_apply (c : Dev nD) (t : Fin cfg0.N) (y : S8x17x128x128.Idx) (i : S128x17x128x128.Idx)
    (h0 : (i 0).val = 8 * t.val + (y 0).val) (h1 : (i 1).val = (y 1).val) (h2 : (i 2).val = (y 2).val) (h3 : (i 3).val = (y 3).val) :
    heatBlk m c t y = heatArr m c i := by
  obtain ⟨e0, e1, e2, e3⟩ := idx0 t
  show V m c main_v0 (((cfg0.win 0).blk t).view.emb y) = V m c main_v0 i
  refine congrArg (V m c main_v0 : S128x17x128x128.Idx → Elt Ideal .f32) ?_
  funext a
  apply Fin.ext
  match a with
  | ⟨0, _⟩ => show win0_0.index t (0 : Fin 4) * 8 + 1 * (y 0).val = (i 0).val; rw [e0, h0]; omega
  | ⟨1, _⟩ => show win0_0.index t (1 : Fin 4) * 17 + 1 * (y 1).val = (i 1).val; rw [e1, h1]; omega
  | ⟨2, _⟩ => show win0_0.index t (2 : Fin 4) * 128 + 1 * (y 2).val = (i 2).val; rw [e2, h2]; omega
  | ⟨3, _⟩ => show win0_0.index t (3 : Fin 4) * 128 + 1 * (y 3).val = (i 3).val; rw [e3, h3]; omega

theorem ycBlk_apply (c : Dev nD) (t : Fin cfg0.N) (y : S8x17x10.Idx) (i : S128x17x10.Idx)
    (h0 : (i 0).val = 8 * t.val + (y 0).val) (h1 : (i 1).val = (y 1).val) (h2 : (i 2).val = (y 2).val) :
    ycBlk m c t y = ycArr m c i := by
  obtain ⟨e0, e1, e2⟩ := idx1 t
  show V m c main_v24 (((cfg0.win 1).blk t).view.emb y) = V m c main_v24 i
  refine congrArg (V m c main_v24 : S128x17x10.Idx → BitVec 32) ?_
  funext a
  apply Fin.ext
  match a with
  | ⟨0, _⟩ => show win0_1.index t (0 : Fin 3) * 8 + 1 * (y 0).val = (i 0).val; rw [e0, h0]; omega
  | ⟨1, _⟩ => show win0_1.index t (1 : Fin 3) * 17 + 1 * (y 1).val = (i 1).val; rw [e1, h1]; omega
  | ⟨2, _⟩ => show win0_1.index t (2 : Fin 3) * 10 + 1 * (y 2).val = (i 2).val; rw [e2, h2]; omega

theorem xcBlk_apply (c : Dev nD) (t : Fin cfg0.N) (y : S8x17x10.Idx) (i : S128x17x10.Idx)
    (h0 : (i 0).val = 8 * t.val + (y 0).val) (h1 : (i 1).val = (y 1).val) (h2 : (i 2).val = (y 2).val) :
    xcBlk m c t y = xcArr m c i := by
  obtain ⟨e0, e1, e2⟩ := idx2 t
  show V m c main_v23 (((cfg0.win 2).blk t).view.emb y) = V m c main_v23 i
  refine congrArg (V m c main_v23 : S128x17x10.Idx → BitVec 32) ?_
  funext a
  apply Fin.ext
  match a with
  | ⟨0, _⟩ => show win0_2.index t (0 : Fin 3) * 8 + 1 * (y 0).val = (i 0).val; rw [e0, h0]; omega
  | ⟨1, _⟩ => show win0_2.index t (1 : Fin 3) * 17 + 1 * (y 1).val = (i 1).val; rw [e1, h1]; omega
  | ⟨2, _⟩ => show win0_2.index t (2 : Fin 3) * 10 + 1 * (y 2).val = (i 2).val; rw [e2, h2]; omega

/-! ## What point `t` writes back -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem N16 : cfg0.N = 16 := N_0

/-- Block `t` of the output array is rows `8t … 8t+7`. -/
theorem outEmb (t : Fin cfg0.N) (b : Fin 8) (k : Fin 17) (p : Fin 10) :
    ((cfg0.win 3).blk t).view.emb (ix3 b k p)
      = (ix3 (⟨8 * t.val + b.val, by have := t.isLt; have hN : cfg0.N = 16 := N16; omega⟩ : Fin 128) k p : S128x17x10.Idx) := by
  obtain ⟨e0, e1, e2⟩ := idx3 t
  funext a
  apply Fin.ext
  match a with
  | ⟨0, _⟩ => show win0_3.index t (0 : Fin 3) * 8 + 1 * b.val = 8 * t.val + b.val; rw [e0]; omega
  | ⟨1, _⟩ => show win0_3.index t (1 : Fin 3) * 17 + 1 * k.val = k.val; rw [e1]; omega
  | ⟨2, _⟩ => show win0_3.index t (2 : Fin 3) * 10 + 1 * p.val = p.val; rw [e2]; omega

/-- WHAT POINT `t` WRITES BACK is block `t` of `picked` of the three arrays as the region finds them. -/
theorem flushed3_eq (c : Dev nD) (hY : ∀ i, (ycArr m c i).toNat < 128) (hX : ∀ i, (xcArr m c i).toNat < 128) (t : Fin cfg0.N) :
    (dats m 0 c).flushed 3 t
      = ((cfg0.win 3).blk t).view.read (Elt Ideal) (picked (heatArr m c) (ycArr m c) (xcArr m c) hY hX) := by
  show (cfg0.win 3).cut (grid0.coords t) ((dats m 0 c).after 3 t) = _
  rw [after3]
  unfold out3
  rw [View.canon_unit_zero hz3]
  simp only [View.ld_unit_zero (S := S8x17x128x128) hz4, View.ld_unit_zero (S := S8x17x10) hz3]
  funext j
  obtain ⟨b, k, p, rfl⟩ : ∃ (b : Fin 8) (k : Fin 17) (p : Fin 10), j = ix3 b k p := ⟨j 0, j 1, j 2, eq_ix3 j⟩
  have hn : 8 * t.val + b.val < 128 := by have := t.isLt; have hN : cfg0.N = 16 := N16; omega
  have ey : ycBlk m c t (ix3 b k p) = ycArr m c (ix3 (⟨8 * t.val + b.val, hn⟩ : Fin 128) k p) :=
    ycBlk_apply m c t (ix3 b k p) (ix3 (⟨8 * t.val + b.val, hn⟩ : Fin 128) k p) rfl rfl rfl
  have ex : xcBlk m c t (ix3 b k p) = xcArr m c (ix3 (⟨8 * t.val + b.val, hn⟩ : Fin 128) k p) :=
    xcBlk_apply m c t (ix3 b k p) (ix3 (⟨8 * t.val + b.val, hn⟩ : Fin 128) k p) rfl rfl rfl
  have hy : (ycBlk m c t (ix3 b k p)).toNat < 128 := by rw [ey]; exact hY _
  have hx : (xcBlk m c t (ix3 b k p)).toNat < 128 := by rw [ex]; exact hX _
  show k0_pay1 (F := Ideal) (heatBlk m c t) (ycBlk m c t) (xcBlk m c t) (ix3 b k p)
      = picked (heatArr m c) (ycArr m c) (xcArr m c) hY hX (((cfg0.win 3).blk t).view.emb (ix3 b k p))
  rw [outEmb t b k p]
  refine (payload_apply (heatBlk m c t) (ycBlk m c t) (xcBlk m c t) b k p hy hx).trans ?_
  unfold picked
  refine heatBlk_apply m c t _ _ ?_ ?_ ?_ ?_
  · rfl
  · rfl
  · show (ycArr m c (ix3 (⟨8 * t.val + b.val, hn⟩ : Fin 128) k p)).toNat = (ycBlk m c t (ix3 b k p)).toNat
    rw [ey]
  · show (xcArr m c (ix3 (⟨8 * t.val + b.val, hn⟩ : Fin 128) k p)).toNat = (xcBlk m c t (ix3 b k p)).toNat
    rw [ex]

/-! ## The sixteen blocks tile the output array -/

theorem mem_blk3 (t : Fin cfg0.N) (i : S128x17x10.Idx) :
    i ∈ ((cfg0.win 3).blk t).view.set ↔ ∀ a : Fin 3, win0_3.index t a * S8x17x10.size a ≤ (i a).val ∧ (i a).val < win0_3.index t a * S8x17x10.size a + S8x17x10.size a := by
  show i ∈ ((View.whole main_v25).slice (win0_3.rect t)).set ↔ _
  rw [View.set_slice_whole, Rect.mem_set_unit]
  exact Iff.rfl

theorem cover3_arr (i : S128x17x10.Idx) : ∃ t : Fin cfg0.N, (cfg0.win 3).flush t = true ∧ i ∈ ((cfg0.win 3).blk t).view.set := by
  have hi0 : (i 0).val < 128 := (i 0).isLt
  have hi1 : (i 1).val < 17 := (i 1).isLt
  have hi2 : (i 2).val < 10 := (i 2).isLt
  let t : Fin cfg0.N := ⟨(i 0).val / 8, by rw [N16]; omega⟩
  obtain ⟨e0, e1, e2⟩ := idx3 t
  have ht : t.val = (i 0).val / 8 := rfl
  refine ⟨t, flush0_3 t, ?_⟩
  rw [mem_blk3]
  intro a
  match a with
  | ⟨0, _⟩ => show win0_3.index t (0 : Fin 3) * 8 ≤ (i 0).val ∧ (i 0).val < win0_3.index t (0 : Fin 3) * 8 + 8; rw [e0, ht]; omega
  | ⟨1, _⟩ => show win0_3.index t (1 : Fin 3) * 17 ≤ (i 1).val ∧ (i 1).val < win0_3.index t (1 : Fin 3) * 17 + 17; rw [e1]; omega
  | ⟨2, _⟩ => show win0_3.index t (2 : Fin 3) * 10 ≤ (i 2).val ∧ (i 2).val < win0_3.index t (2 : Fin 3) * 10 + 10; rw [e2]; omega

/-- THE OUTPUT ARRAY after the run is `picked` of the three arrays the region reads. -/
theorem final3 (c : Dev nD) (hY : ∀ i, (ycArr m c i).toNat < 128) (hX : ∀ i, (xcArr m c i).toNat < 128) :
    (dats m 0 c).arrAt 3 cfg0.N = picked (heatArr m c) (ycArr m c) (xcArr m c) hY hX :=
  (dats m 0 c).arrAt_eq_of_cover 3 (picked (heatArr m c) (ycArr m c) (xcArr m c) hY hX)
    (fun t _ => flushed3_eq m c hY hX t) cover3_arr

end Cert.KernelIdeal.Select

end
-- ==== Proof.SelectHost.lean ====
/-
  The kernel program's host lines, read against the reference's own definitions.

  Before the pallas_call the kernel program computes the same rounded coordinates, validity bits and clamps as the
  reference, and hands the region the heatmaps with batch and time merged, and the clamped y and x coordinates
  TRANSPOSED to [128, 17, 10] (image, keypoint, person). After the call it transposes the region's [128, 17, 10] output
  back to [128, 10, 17] and applies, line for line, the reference's person means, variances and hinge sums to it and to
  the validity bits as 0/1 floats. So the two results are the reference's `within` and `across` of the transposed
  output and the reference's `mask`.
-/
import proofs.«159086_j30863634989288_1_alg».proof.Proof.FrameBodyIdeal
import proofs.«159086_j30863634989288_1_alg».proof.Proof.RefDefs
import Idealize.ShloMosaic.Lib.StableHlo.Run

set_option maxRecDepth 16384

noncomputable section

namespace Cert.KernelIdeal.Select

open Idealize.ShloMosaic Idealize.ShloMosaic.TcCoe Idealize.SL.Sem Idealize.ShloMosaic.StableHlo
open Cert.KernelIdeal Cert.KernelIdeal.Gen Cert.KernelIdeal.Frame

variable {F : FTy → Type} [FloatOps F]
variable (m : (ℓ : Loc nD τ sig) → Buf (Elt F) ℓ)

/-! ## What the region finds -/

/-- The heatmap array the region reads is the first argument with batch and time merged. -/
theorem heat_eq (c : Dev nD) :
    (V m c main_v0 : FVec F S128x17x128x128 .f32) = Cert.ReferenceIdeal.RefValue.heat (m ((c.tc : Thread nD τ).loc main_arg0)) := by
  generalize hX : Cert.ReferenceIdeal.RefValue.heat (F := F) _ = X
  dsimp only [V, V0]
  simp only [preOps, hostOps0, hostOps0_1, hostOps0_2, hostOps0_3, hostOps0_4, hostOps0_5, hostOps0_6, List.flatten_cons, List.flatten_nil, List.append_nil, List.cons_append, List.nil_append]
  after_results_simp
  subst hX
  rfl

/-- The row coordinates the region reads are the reference's clamped y coordinates, transposed to (image, keypoint, person). -/
theorem yc_eq (c : Dev nD) :
    (V m c main_v24 : IVec S128x17x10 32)
      = transpose S128x17x10 [0, 2, 1] (Cert.ReferenceIdeal.RefValue.clip (Cert.ReferenceIdeal.RefValue.yRaw (m ((c.tc : Thread nD τ).loc main_arg1)))) transposes_S128x10x17_S128x17x10_0_2_1 := by
  generalize hX : transpose S128x17x10 [0, 2, 1] (Cert.ReferenceIdeal.RefValue.clip _) transposes_S128x10x17_S128x17x10_0_2_1 = X
  dsimp only [V, V0]
  simp only [preOps, hostOps0, hostOps0_1, hostOps0_2, hostOps0_3, hostOps0_4, hostOps0_5, hostOps0_6, List.flatten_cons, List.flatten_nil, List.append_nil, List.cons_append, List.nil_append]
  after_results_simp
  subst hX
  rfl

/-- The column coordinates the region reads are the reference's clamped x coordinates, transposed likewise. -/
theorem xc_eq (c : Dev nD) :
    (V m c main_v23 : IVec S128x17x10 32)
      = transpose S128x17x10 [0, 2, 1] (Cert.ReferenceIdeal.RefValue.clip (Cert.ReferenceIdeal.RefValue.xRaw (m ((c.tc : Thread nD τ).loc main_arg1)))) transposes_S128x10x17_S128x17x10_0_2_1 := by
  generalize hX : transpose S128x17x10 [0, 2, 1] (Cert.ReferenceIdeal.RefValue.clip _) transposes_S128x10x17_S128x17x10_0_2_1 = X
  dsimp only [V, V0]
  simp only [preOps, hostOps0, hostOps0_1, hostOps0_2, hostOps0_3, hostOps0_4, hostOps0_5, hostOps0_6, List.flatten_cons, List.flatten_nil, List.append_nil, List.cons_append, List.nil_append]
  after_results_simp
  subst hX
  rfl

/-- The validity bits, as 0/1 floats, are the reference's mask. -/
theorem valid_eq (c : Dev nD) :
    uitofp (F := F) .f32 (V m c main_v20 : IVec S128x10x17 1) = Cert.ReferenceIdeal.RefValue.mask (m ((c.tc : Thread nD τ).loc main_arg1)) := by
  generalize hX : Cert.ReferenceIdeal.RefValue.mask (F := F) _ = X
  dsimp only [V, V0]
  simp only [preOps, hostOps0, hostOps0_1, hostOps0_2, hostOps0_3, hostOps0_4, hostOps0_5, hostOps0_6, List.flatten_cons, List.flatten_nil, List.append_nil, List.cons_append, List.nil_append]
  after_results_simp
  subst hX
  rfl

/-! ## The lines after the region, from any contents -/

set_option maxHeartbeats 4000000 in
/-- The first result is the reference's `within` of the region's output transposed back and the validity floats. -/
theorem tail_within (W : Valuation τ sig (Elt F)) :
    (StableHlo.after (List.flatten (postOps (F := F))) W (Proc.devRef .tc main_v88) : FVec F S_ .f32)
      = Cert.ReferenceIdeal.RefValue.within
          (transpose S128x10x17 [0, 2, 1] (W (Proc.devRef .tc main_v25) : FVec F S128x17x10 .f32) transposes_S128x17x10_S128x10x17_0_2_1)
          (uitofp (F := F) .f32 (W (Proc.devRef .tc main_v20) : IVec S128x10x17 1)) := by
  generalize hX : Cert.ReferenceIdeal.RefValue.within (F := F) _ _ = X
  simp only [postOps, hostOps1, hostOps1_1, hostOps1_2, hostOps1_3, hostOps1_4, List.flatten_cons, List.flatten_nil, List.append_nil, List.cons_append, List.nil_append]
  after_results_simp
  subst hX
  rfl

set_option maxHeartbeats 4000000 in
/-- The second result is the reference's `across` of the same two. -/
theorem tail_across (W : Valuation τ sig (Elt F)) :
    (StableHlo.after (List.flatten (postOps (F := F))) W (Proc.devRef .tc main_v92) : FVec F S_ .f32)
      = Cert.ReferenceIdeal.RefValue.across
          (transpose S128x10x17 [0, 2, 1] (W (Proc.devRef .tc main_v25) : FVec F S128x17x10 .f32) transposes_S128x17x10_S128x10x17_0_2_1)
          (uitofp (F := F) .f32 (W (Proc.devRef .tc main_v20) : IVec S128x10x17 1)) := by
  generalize hX : Cert.ReferenceIdeal.RefValue.across (F := F) _ _ = X
  simp only [postOps, hostOps1, hostOps1_1, hostOps1_2, hostOps1_3, hostOps1_4, List.flatten_cons, List.flatten_nil, List.append_nil, List.cons_append, List.nil_append]
  after_results_simp
  subst hX
  rfl

end Cert.KernelIdeal.Select

end
-- ==== Proof.PointGather.lean ====
import proofs.«159086_j30863634989288_1_alg».proof.ReferenceIdeal
import Idealize.ShloMosaic.Lib.ValueIdx
import Idealize.ShloMosaic.Lib.Pipeline.Value
import Idealize.ShloMosaic.PureOps.Ideal.Laws

noncomputable section

namespace Cert.ReferenceIdeal.PointGather

open Idealize.ShloMosaic Idealize.ShloMosaic.ValueIdx Cert.ReferenceIdeal

variable [Cert.ReferenceIdeal.Facts]
open Cert.ReferenceIdeal.Facts₀ Cert.ReferenceIdeal.Facts

/-! # A point gather of a rank-4 array at four-component start indices

The start indices are the concatenation along the last axis of four arrays of last extent 1, so component `a` of the
start index of result element `(n, p, k)` is the `a`-th piece at `(n, p, k, 0)`. Every operand axis is collapsed with
slice size 1, so the element read is the operand at the four components, each read as a signed integer and clamped
into `[0, size − 1]`. -/

/-- The four pieces of the start-index array, as a list of shaped arrays. -/
abbrev pieces {α : Type} (i0 i1 i2 i3 : S128x10x17x1.Idx → α) : List ((s : Shape) × (s.Idx → α)) :=
  [⟨S128x10x17x1, i0⟩, ⟨S128x10x17x1, i1⟩, ⟨S128x10x17x1, i2⟩, ⟨S128x10x17x1, i3⟩]

/-- The concatenation read at last coordinate 0 is the first piece at last coordinate 0: the pieces before it
    have total extent 0 along the axis, and the other three coordinates are shared. -/
theorem concat4_unit_apply0 {α : Type} (i0 i1 i2 i3 : S128x10x17x1.Idx → α)
    (n : Fin 128) (p : Fin 10) (k : Fin 17) :
    concatenate S128x10x17x4 3 [⟨S128x10x17x1, i0⟩, ⟨S128x10x17x1, i1⟩, ⟨S128x10x17x1, i2⟩, ⟨S128x10x17x1, i3⟩]
          concatenates_S128x10x17x1_S128x10x17x1_S128x10x17x1_S128x10x17x1_S128x10x17x4_d3 (ix4 n p k (0 : Fin 4))
      = i0 (ix4 n p k (0 : Fin 1)) := by
  refine concatenate_apply_piece (t := S128x10x17x4) (3 : Fin 4) (pieces i0 i1 i2 i3)
    concatenates_S128x10x17x1_S128x10x17x1_S128x10x17x1_S128x10x17x1_S128x10x17x4_d3 (ix4 n p k (0 : Fin 4))
    0 (show (0 : Nat) < 4 by decide) S128x10x17x1 i0 rfl rfl 0 rfl (ix4 n p k (0 : Fin 1)) ?_ ?_
  · intro b hb
    match b with
    | ⟨0, _⟩ => rfl
    | ⟨1, _⟩ => rfl
    | ⟨2, _⟩ => rfl
    | ⟨3, _⟩ => exact absurd rfl hb
  · rfl

/-- The concatenation read at last coordinate 1 is the second piece at last coordinate 0: the pieces before it
    have total extent 1 along the axis, and the other three coordinates are shared. -/
theorem concat4_unit_apply1 {α : Type} (i0 i1 i2 i3 : S128x10x17x1.Idx → α)
    (n : Fin 128) (p : Fin 10) (k : Fin 17) :
    concatenate S128x10x17x4 3 [⟨S128x10x17x1, i0⟩, ⟨S128x10x17x1, i1⟩, ⟨S128x10x17x1, i2⟩, ⟨S128x10x17x1, i3⟩]
          concatenates_S128x10x17x1_S128x10x17x1_S128x10x17x1_S128x10x17x1_S128x10x17x4_d3 (ix4 n p k (1 : Fin 4))
      = i1 (ix4 n p k (0 : Fin 1)) := by
  refine concatenate_apply_piece (t := S128x10x17x4) (3 : Fin 4) (pieces i0 i1 i2 i3)
    concatenates_S128x10x17x1_S128x10x17x1_S128x10x17x1_S128x10x17x1_S128x10x17x4_d3 (ix4 n p k (1 : Fin 4))
    1 (show (1 : Nat) < 4 by decide) S128x10x17x1 i1 rfl rfl 1 rfl (ix4 n p k (0 : Fin 1)) ?_ ?_
  · intro b hb
    match b with
    | ⟨0, _⟩ => rfl
    | ⟨1, _⟩ => rfl
    | ⟨2, _⟩ => rfl
    | ⟨3, _⟩ => exact absurd rfl hb
  · rfl

/-- The concatenation read at last coordinate 2 is the third piece at last coordinate 0: the pieces before it
    have total extent 2 along the axis, and the other three coordinates are shared. -/
theorem concat4_unit_apply2 {α : Type} (i0 i1 i2 i3 : S128x10x17x1.Idx → α)
    (n : Fin 128) (p : Fin 10) (k : Fin 17) :
    concatenate S128x10x17x4 3 [⟨S128x10x17x1, i0⟩, ⟨S128x10x17x1, i1⟩, ⟨S128x10x17x1, i2⟩, ⟨S128x10x17x1, i3⟩]
          concatenates_S128x10x17x1_S128x10x17x1_S128x10x17x1_S128x10x17x1_S128x10x17x4_d3 (ix4 n p k (2 : Fin 4))
      = i2 (ix4 n p k (0 : Fin 1)) := by
  refine concatenate_apply_piece (t := S128x10x17x4) (3 : Fin 4) (pieces i0 i1 i2 i3)
    concatenates_S128x10x17x1_S128x10x17x1_S128x10x17x1_S128x10x17x1_S128x10x17x4_d3 (ix4 n p k (2 : Fin 4))
    2 (show (2 : Nat) < 4 by decide) S128x10x17x1 i2 rfl rfl 2 rfl (ix4 n p k (0 : Fin 1)) ?_ ?_
  · intro b hb
    match b with
    | ⟨0, _⟩ => rfl
    | ⟨1, _⟩ => rfl
    | ⟨2, _⟩ => rfl
    | ⟨3, _⟩ => exact absurd rfl hb
  · rfl

/-- The concatenation read at last coordinate 3 is the fourth piece at last coordinate 0: the pieces before it
    have total extent 3 along the axis, and the other three coordinates are shared. -/
theorem concat4_unit_apply3 {α : Type} (i0 i1 i2 i3 : S128x10x17x1.Idx → α)
    (n : Fin 128) (p : Fin 10) (k : Fin 17) :
    concatenate S128x10x17x4 3 [⟨S128x10x17x1, i0⟩, ⟨S128x10x17x1, i1⟩, ⟨S128x10x17x1, i2⟩, ⟨S128x10x17x1, i3⟩]
          concatenates_S128x10x17x1_S128x10x17x1_S128x10x17x1_S128x10x17x1_S128x10x17x4_d3 (ix4 n p k (3 : Fin 4))
      = i3 (ix4 n p k (0 : Fin 1)) := by
  refine concatenate_apply_piece (t := S128x10x17x4) (3 : Fin 4) (pieces i0 i1 i2 i3)
    concatenates_S128x10x17x1_S128x10x17x1_S128x10x17x1_S128x10x17x1_S128x10x17x4_d3 (ix4 n p k (3 : Fin 4))
    3 (show (3 : Nat) < 4 by decide) S128x10x17x1 i3 rfl rfl 3 rfl (ix4 n p k (0 : Fin 1)) ?_ ?_
  · intro b hb
    match b with
    | ⟨0, _⟩ => rfl
    | ⟨1, _⟩ => rfl
    | ⟨2, _⟩ => rfl
    | ⟨3, _⟩ => exact absurd rfl hb
  · rfl

/-- The gather's dimension numbers, under a short name. -/
abbrev GD : GatherDims S128x17x128x128 S128x10x17x4 S128x10x17 :=
  gather_S128x17x128x128_S128x10x17x4_S128x10x17_n_0123_n_n_0123_3_1111

/-- The start-indices index at which result element `(n, p, k)` reads component `c` of its start index is
    `(n, p, k, c)`: the three batch coordinates, and `c` on the index vector's axis (the last). -/
theorem siIdx_eq (n : Fin 128) (p : Fin 10) (k : Fin 17) (c : Fin 4)
    (hc : c.val < GD.startIndexMap.length) :
    GD.siIdx (ix3 n p k) ⟨c.val, hc⟩ = ix4 n p k c := by
  funext b; refine Fin.ext ?_
  match b with
  | ⟨0, _⟩ => rfl
  | ⟨1, _⟩ => rfl
  | ⟨2, _⟩ => rfl
  | ⟨3, _⟩ => rfl

/-- The operand coordinate on axis `a` read by result element `(n, p, k)`: no batching and no offset part (every
    axis is collapsed), and the start is component `a` of the start index (axis `a` sits at position `a` of the
    start index map), read signed and clamped to the axis's size less the slice size 1. -/
theorem operandIdx_val {w : Nat} (idx : IVec S128x10x17x4 w) (n : Fin 128) (p : Fin 10) (k : Fin 17) (a : Fin 4) :
    (GD.operandIdx (ix3 n p k) idx a).val
      = min (idx (ix4 n p k a)).toInt.toNat ((![127, 16, 127, 127] : Fin 4 → Nat) a) := by
  have hidx : List.idxOf a GD.startIndexMap = a.val :=
    (show ∀ b : Fin 4, List.idxOf b ([0, 1, 2, 3] : List (Fin 4)) = b.val by decide) a
  have hmem : a ∈ GD.startIndexMap :=
    (show ∀ b : Fin 4, b ∈ ([0, 1, 2, 3] : List (Fin 4)) by decide) a
  have hcol : a ∈ GD.collapsedSliceDims := hmem
  show GD.start (ix3 n p k) idx a + GD.batchCoord (ix3 n p k) a + GD.offCoord (ix3 n p k) a = _
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmem]
  have hlt : a.val < GD.startIndexMap.length := a.isLt
  have hfin : (⟨List.idxOf a GD.startIndexMap, List.idxOf_lt_length_iff.2 hmem⟩ : Fin GD.startIndexMap.length)
      = ⟨a.val, hlt⟩ := Fin.ext hidx
  rw [hfin, siIdx_eq]
  congr 1
  match a with
  | ⟨0, _⟩ => rfl
  | ⟨1, _⟩ => rfl
  | ⟨2, _⟩ => rfl
  | ⟨3, _⟩ => rfl

/-- THE GATHER READ AT `(n, p, k)`: the operand at the four clamped start-index components. -/
theorem gather_point_apply {α : Type} (x : S128x17x128x128.Idx → α) (i0 i1 i2 i3 : IVec S128x10x17x1 32)
    (n : Fin 128) (p : Fin 10) (k : Fin 17) (a0 : Fin 128) (a1 : Fin 17) (a2 a3 : Fin 128)
    (h0 : min (i0 (ix4 n p k (0 : Fin 1))).toInt.toNat 127 = a0.val)
    (h1 : min (i1 (ix4 n p k (0 : Fin 1))).toInt.toNat 16 = a1.val)
    (h2 : min (i2 (ix4 n p k (0 : Fin 1))).toInt.toNat 127 = a2.val)
    (h3 : min (i3 (ix4 n p k (0 : Fin 1))).toInt.toNat 127 = a3.val) :
    Host.gather gather_S128x17x128x128_S128x10x17x4_S128x10x17_n_0123_n_n_0123_3_1111 x
        (concatenate S128x10x17x4 3 [⟨S128x10x17x1, i0⟩, ⟨S128x10x17x1, i1⟩, ⟨S128x10x17x1, i2⟩, ⟨S128x10x17x1, i3⟩]
          concatenates_S128x10x17x1_S128x10x17x1_S128x10x17x1_S128x10x17x1_S128x10x17x4_d3) (ix3 n p k)
      = x (ix4 a0 a1 a2 a3) := by
  have e0 := concat4_unit_apply0 i0 i1 i2 i3 n p k
  have e1 := concat4_unit_apply1 i0 i1 i2 i3 n p k
  have e2 := concat4_unit_apply2 i0 i1 i2 i3 n p k
  have e3 := concat4_unit_apply3 i0 i1 i2 i3 n p k
  generalize concatenate S128x10x17x4 3 [⟨S128x10x17x1, i0⟩, ⟨S128x10x17x1, i1⟩, ⟨S128x10x17x1, i2⟩, ⟨S128x10x17x1, i3⟩]
    concatenates_S128x10x17x1_S128x10x17x1_S128x10x17x1_S128x10x17x1_S128x10x17x4_d3 = C at e0 e1 e2 e3 ⊢
  unfold Host.gather
  congr 1
  funext a
  refine Fin.ext ?_
  refine (operandIdx_val C n p k a).trans ?_
  match a with
  | ⟨0, _⟩ =>
    show min (C (ix4 n p k (0 : Fin 4))).toInt.toNat 127 = a0.val
    rw [e0]; exact h0
  | ⟨1, _⟩ =>
    show min (C (ix4 n p k (1 : Fin 4))).toInt.toNat 16 = a1.val
    rw [e1]; exact h1
  | ⟨2, _⟩ =>
    show min (C (ix4 n p k (2 : Fin 4))).toInt.toNat 127 = a2.val
    rw [e2]; exact h2
  | ⟨3, _⟩ =>
    show min (C (ix4 n p k (3 : Fin 4))).toInt.toNat 127 = a3.val
    rw [e3]; exact h3

end Cert.ReferenceIdeal.PointGather

end
-- ==== Proof.RefIndex.lean ====
import proofs.«159086_j30863634989288_1_alg».proof.Proof.RefDefs
import proofs.«159086_j30863634989288_1_alg».proof.Proof.PointGather
import Idealize.ShloMosaic.Lib.ValueIdx
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.ValueIdx Idealize.ShloMosaic.TcCoe

variable {F : FTy → Type} [FloatOps F]

/-! # The gather's start indices, read at a point

The four start-index components of result element (n, p, k) are the words `n`, `k`, the clamped y coordinate and the
clamped x coordinate, each passed through the negative-index wrap. None of them is negative as a signed word, so the
wrap keeps each; and each is already within its axis, so the gather's own clamp keeps it too. Hence the gathered value
is the heatmap entry at (n, k, yc, xc). -/

/-- A 32-bit word whose signed value lies in [0, 127] has that value as its unsigned one. -/
theorem word_of_bounds (b : BitVec 32) (h0 : 0 ≤ b.toInt) (h1 : b.toInt ≤ 127) :
    b.toNat < 128 ∧ b.toInt.toNat = b.toNat := by
  have hc := BitVec.toInt_eq_toNat_cond b
  have hlt := b.isLt
  split at hc <;> omega

/-- The signed clamp `min 127 (max 0 w)` lies in [0, 127]. -/
theorem clampW_bounds (w : BitVec 32) :
    0 ≤ (IntOp.minsi 127#32 (IntOp.maxsi 0#32 w)).toInt ∧ (IntOp.minsi 127#32 (IntOp.maxsi 0#32 w)).toInt ≤ 127 := by
  have e0 : (0#32 : BitVec 32).toInt = 0 := by decide
  have e127 : (127#32 : BitVec 32).toInt = 127 := by decide
  unfold IntOp.minsi IntOp.maxsi BitVec.slt
  simp only [decide_eq_true_eq]
  split_ifs <;> omega

/-- A small natural number as a 32-bit word has itself as signed value. -/
theorem ofNat_toInt (m : Nat) (hm : m < 128) : (BitVec.ofNat 32 m).toInt = (m : Int) := by
  rw [BitVec.toInt_eq_toNat_cond, BitVec.toNat_ofNat]
  split <;> omega

/-- The negative-index wrap keeps a word that is not negative. -/
theorem wrap_keep (b c : BitVec 32) (h : 0 ≤ b.toInt) :
    Scalar.select (IntOp.cmpi .slt b 0#32) (IntOp.addi b c) b = b := by
  have e0 : (0#32 : BitVec 32).toInt = 0 := by decide
  have hs : b.slt 0#32 = false := by
    unfold BitVec.slt
    exact decide_eq_false (by omega)
  show Scalar.select (BitVec.ofBool (b.slt 0#32)) (IntOp.addi b c) b = b
  rw [hs]
  exact if_neg (by decide)

/-- The clamp at an index is the word clamp of the entry. -/
theorem clip_apply (v : IVec S128x10x17 32) (j : S128x10x17.Idx) :
    clip v j = IntOp.minsi 127#32 (IntOp.maxsi 0#32 (v j)) := rfl

/-- The wrap at an index is the word wrap of the entry. -/
theorem wrap128_apply (v : IVec S128x10x17 32) (j : S128x10x17.Idx) :
    wrap128 v j = Scalar.select (IntOp.cmpi .slt (v j) 0#32) (IntOp.addi (v j) 128#32) (v j) := rfl

/-- The image-index piece at (n, p, k, 0) is the wrap of the word `n`. -/
theorem idxN_apply (n : Fin 128) (p : Fin 10) (k : Fin 17) :
    idxN (ix4 n p k (0 : Fin 1))
      = Scalar.select (IntOp.cmpi .slt (BitVec.ofNat 32 n.val) 0#32) (IntOp.addi (BitVec.ofNat 32 n.val) 128#32)
          (BitVec.ofNat 32 n.val) := rfl

/-- The keypoint-index piece at (n, p, k, 0) is the wrap of the word `k`. -/
theorem idxK_apply (n : Fin 128) (p : Fin 10) (k : Fin 17) :
    idxK (ix4 n p k (0 : Fin 1))
      = Scalar.select (IntOp.cmpi .slt (BitVec.ofNat 32 k.val) 0#32) (IntOp.addi (BitVec.ofNat 32 k.val) 17#32)
          (BitVec.ofNat 32 k.val) := rfl

/-- A [128, 10, 17] array seen as [128, 10, 17, 1], read at (n, p, k, 0), is the array at (n, p, k). -/
theorem lift1_apply (v : IVec S128x10x17 32) (n : Fin 128) (p : Fin 10) (k : Fin 17) :
    lift1 v (ix4 n p k (0 : Fin 1)) = v (ix3 n p k) := by
  unfold lift1
  refine broadcastInDim_apply _ _ v _ (ix3 n p k) ?_
  intro a
  match a with
  | ⟨0, _⟩ => rfl
  | ⟨1, _⟩ => rfl
  | ⟨2, _⟩ => rfl

/-- A word clamped as a signed number into [0, 127] is below 128 as an unsigned one. -/
theorem clip_lt (v : IVec S128x10x17 32) (j : S128x10x17.Idx) : (clip v j).toNat < 128 := by
  rw [clip_apply]
  exact (word_of_bounds _ (clampW_bounds _).1 (clampW_bounds _).2).1

/-- The first start-index component of (n, p, k), read signed and clamped to [0, 127], is `n`. -/
theorem start_idxN (n : Fin 128) (p : Fin 10) (k : Fin 17) :
    min (idxN (ix4 n p k (0 : Fin 1))).toInt.toNat 127 = n.val := by
  have hn := n.isLt
  have hi := ofNat_toInt n.val hn
  rw [idxN_apply, wrap_keep _ _ (by omega), hi]
  omega

/-- The second start-index component of (n, p, k), read signed and clamped to [0, 16], is `k`. -/
theorem start_idxK (n : Fin 128) (p : Fin 10) (k : Fin 17) :
    min (idxK (ix4 n p k (0 : Fin 1))).toInt.toNat 16 = k.val := by
  have hk := k.isLt
  have hi := ofNat_toInt k.val (by omega)
  rw [idxK_apply, wrap_keep _ _ (by omega), hi]
  omega

/-- A clamped coordinate array, wrapped and lifted, read at (n, p, k, 0) signed and clamped to [0, 127], is the clamped
    coordinate itself as an unsigned number: it is not negative, so the wrap keeps it, and it is at most 127. -/
theorem start_clip (v : IVec S128x10x17 32) (n : Fin 128) (p : Fin 10) (k : Fin 17) :
    min (lift1 (wrap128 (clip v)) (ix4 n p k (0 : Fin 1))).toInt.toNat 127 = (clip v (ix3 n p k)).toNat := by
  have hb : 0 ≤ (clip v (ix3 n p k)).toInt ∧ (clip v (ix3 n p k)).toInt ≤ 127 := clampW_bounds _
  have hw := word_of_bounds _ hb.1 hb.2
  rw [lift1_apply, wrap128_apply, wrap_keep _ _ hb.1]
  omega

/-- The gathered embedding at image n, person p, keypoint k is the heatmap entry at row yc[n,p,k], column xc[n,p,k]. -/
theorem gathered_apply (a0 : (⟨S16x8x17x128x128, .f32⟩ : BufTy).Contents (Elt F)) (a1 : (⟨S16x8x10x17x2, .f32⟩ : BufTy).Contents (Elt F))
    (n : Fin 128) (p : Fin 10) (k : Fin 17) :
    gathered a0 a1 (ix3 n p k)
      = heat a0 (ix4 n k ⟨(clip (yRaw a1) (ix3 n p k)).toNat, clip_lt _ _⟩ ⟨(clip (xRaw a1) (ix3 n p k)).toNat, clip_lt _ _⟩) := by
  unfold gathered startIdx
  exact PointGather.gather_point_apply (heat a0) idxN idxK (lift1 (wrap128 (clip (yRaw a1)))) (lift1 (wrap128 (clip (xRaw a1))))
    n p k n k ⟨_, clip_lt _ _⟩ ⟨_, clip_lt _ _⟩ (start_idxN n p k) (start_idxK n p k) (start_clip _ n p k) (start_clip _ n p k)

end Cert.ReferenceIdeal.RefValue

end
-- ==== Proof.Bridge.lean ====
/-
  The two programs end with equal results at the ideal instance.

  The region's output array holds, at (image n, keypoint k, person p), the heatmap entry at row yc and column xc, where
  yc and xc are the reference's clamped coordinates of (n, p, k) (the kernel program hands them to the region
  transposed). Transposed back to (n, p, k) that is the reference's gathered embedding at (n, p, k): the gather reads the
  same entry, its wrap and its own clamp keeping indices that are already in range. The later host lines are the
  reference's, so both results are the reference's `within` and `across` of the gathered values and the mask.
-/
import proofs.«159086_j30863634989288_1_alg».proof.Defs
import proofs.«159086_j30863634989288_1_alg».proof.Proof.SelectArray
import proofs.«159086_j30863634989288_1_alg».proof.Proof.SelectHost
import proofs.«159086_j30863634989288_1_alg».proof.Proof.RefIndex
import proofs.«159086_j30863634989288_1_alg».proof.Proof.RefValue
import Idealize.ShloMosaic.Lib.ValueLayout

set_option maxRecDepth 16384

noncomputable section

namespace Cert.Proof.Bridge

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame Cert.KernelIdeal.Select

variable (m : (ℓ : Loc nD τ sig) → Buf (Elt Ideal) ℓ)

/-! ## The coordinates the region reads are in range -/

theorem ycArr_apply (c : Dev nD) (n : Fin 128) (k : Fin 17) (p : Fin 10) :
    ycArr m c (ix3 n k p) = Cert.ReferenceIdeal.RefValue.clip (Cert.ReferenceIdeal.RefValue.yRaw (m ((c.tc : Thread nD τ).loc main_arg1))) (ix3 n p k) := by
  show (V m c main_v24 : IVec S128x17x10 32) (ix3 n k p) = _
  rw [yc_eq m c]
  exact transpose_ix3_021_apply _ _ n k p

theorem xcArr_apply (c : Dev nD) (n : Fin 128) (k : Fin 17) (p : Fin 10) :
    xcArr m c (ix3 n k p) = Cert.ReferenceIdeal.RefValue.clip (Cert.ReferenceIdeal.RefValue.xRaw (m ((c.tc : Thread nD τ).loc main_arg1))) (ix3 n p k) := by
  show (V m c main_v23 : IVec S128x17x10 32) (ix3 n k p) = _
  rw [xc_eq m c]
  exact transpose_ix3_021_apply _ _ n k p

theorem ycArr_lt (c : Dev nD) : ∀ i, (ycArr m c i).toNat < 128 := by
  intro i
  obtain ⟨n, k, p, rfl⟩ : ∃ (n : Fin 128) (k : Fin 17) (p : Fin 10), i = ix3 n k p := ⟨i 0, i 1, i 2, eq_ix3 i⟩
  rw [ycArr_apply]
  exact Cert.ReferenceIdeal.RefValue.clip_lt _ _

theorem xcArr_lt (c : Dev nD) : ∀ i, (xcArr m c i).toNat < 128 := by
  intro i
  obtain ⟨n, k, p, rfl⟩ : ∃ (n : Fin 128) (k : Fin 17) (p : Fin 10), i = ix3 n k p := ⟨i 0, i 1, i 2, eq_ix3 i⟩
  rw [xcArr_apply]
  exact Cert.ReferenceIdeal.RefValue.clip_lt _ _

/-! ## The region's output, transposed back, is the reference's gathered values -/

theorem vals_eq (c : Dev nD) :
    (transpose S128x10x17 [0, 2, 1] ((dats m 0 c).arrAt 3 cfg0.N : FVec Ideal S128x17x10 .f32) transposes_S128x17x10_S128x10x17_0_2_1 : FVec Ideal S128x10x17 .f32)
      = Cert.ReferenceIdeal.RefValue.gathered (m ((c.tc : Thread nD τ).loc main_arg0)) (m ((c.tc : Thread nD τ).loc main_arg1)) := by
  funext j
  obtain ⟨n, p, k, rfl⟩ : ∃ (n : Fin 128) (p : Fin 10) (k : Fin 17), j = ix3 n p k := ⟨j 0, j 1, j 2, eq_ix3 j⟩
  rw [final3 m c (ycArr_lt m c) (xcArr_lt m c)]
  refine (transpose_ix3_021_apply _ _ n p k).trans ?_
  rw [Cert.ReferenceIdeal.RefValue.gathered_apply]
  unfold picked
  show (V m c main_v0 : FVec Ideal S128x17x128x128 .f32) _ = _
  rw [heat_eq m c]
  refine congrArg (Cert.ReferenceIdeal.RefValue.heat (m ((c.tc : Thread nD τ).loc main_arg0))) ?_
  funext a
  apply Fin.ext
  match a with
  | ⟨0, _⟩ => rfl
  | ⟨1, _⟩ => rfl
  | ⟨2, _⟩ => show (ycArr m c (ix3 n k p)).toNat = _; rw [ycArr_apply]
  | ⟨3, _⟩ => show (xcArr m c (ix3 n k p)).toNat = _; rw [xcArr_apply]

/-! ## The two results -/

/-- The buffers' contents as the region leaves them: the pipeline's four arrays at their final contents, every other
    buffer as the region found it. -/
def exitVal (c : Dev nD) : Valuation τ sig (Elt Ideal) :=
  Pipeline.withArrays (cfgs 0).spec c (V0 m c) fun w => (dats m 0 c).arrAt w (cfgs 0).N

theorem afterTail_eq (c : Dev nD) (b : Ref sig .tc) :
    Pipeline.afterTail₀ cfgs (dats m) 0 (V0 m) postOps c b
      = StableHlo.after (List.flatten (postOps (F := Ideal))) (exitVal m c) (Proc.devRef .tc b) := rfl

/-- The region's output array leaves at its final contents, -/
theorem exit25 (c : Dev nD) :
    (exitVal m c (Proc.devRef .tc main_v25) : FVec Ideal S128x17x10 .f32) = (dats m 0 c).arrAt 3 cfg0.N :=
  Pipeline.withArrays_arr spec0 launch0.win.arr_inj c _ _ 3

/-- and the validity bits, which bypass the region, as the region found them. -/
theorem exit20 (c : Dev nD) :
    (exitVal m c (Proc.devRef .tc main_v20) : IVec S128x10x17 1) = V m c main_v20 :=
  Pipeline.withArrays_of_ne _ c (V0 m c) _ main_v20 (by exact (by decide : ∀ w, Pipeline.arrRef spec0 w ≠ main_v20))

/-- The kernel program's first result is `within` of the reference's gathered values and mask, -/
theorem out0_eq (c : Dev nD) :
    Pipeline.afterTail₀ cfgs (dats m) 0 (V0 m) postOps c main_v88
      = Cert.ReferenceIdeal.RefValue.within (Cert.ReferenceIdeal.RefValue.gathered (m ((c.tc : Thread nD τ).loc main_arg0)) (m ((c.tc : Thread nD τ).loc main_arg1))) (Cert.ReferenceIdeal.RefValue.mask (m ((c.tc : Thread nD τ).loc main_arg1))) := by
  rw [afterTail_eq]
  refine (tail_within (exitVal m c)).trans ?_
  rw [exit25 m c, exit20 m c, valid_eq m c, vals_eq m c]

/-- and its second is `across` of them. -/
theorem out1_eq (c : Dev nD) :
    Pipeline.afterTail₀ cfgs (dats m) 0 (V0 m) postOps c main_v92
      = Cert.ReferenceIdeal.RefValue.across (Cert.ReferenceIdeal.RefValue.gathered (m ((c.tc : Thread nD τ).loc main_arg0)) (m ((c.tc : Thread nD τ).loc main_arg1))) (Cert.ReferenceIdeal.RefValue.mask (m ((c.tc : Thread nD τ).loc main_arg1))) := by
  rw [afterTail_eq]
  refine (tail_across (exitVal m c)).trans ?_
  rw [exit25 m c, exit20 m c, valid_eq m c, vals_eq m c]

/-- The kernel program's run, read: both results at the reference's functions of the arguments, the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v88)
          = Cert.ReferenceIdeal.RefValue.within (Cert.ReferenceIdeal.RefValue.gathered (m ((c.tc : Thread nD τ).loc main_arg0)) (m ((c.tc : Thread nD τ).loc main_arg1))) (Cert.ReferenceIdeal.RefValue.mask (m ((c.tc : Thread nD τ).loc main_arg1)))
      ∧ r.2.mem ((c.tc : Thread nD τ).loc main_v92)
          = Cert.ReferenceIdeal.RefValue.across (Cert.ReferenceIdeal.RefValue.gathered (m ((c.tc : Thread nD τ).loc main_arg0)) (m ((c.tc : Thread nD τ).loc main_arg1))) (Cert.ReferenceIdeal.RefValue.mask (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v88 (Pipeline.mem_restRefs_of main_v88 (by decide) (by decide))).trans (out0_eq m c),
     ((h c).2 main_v92 (Pipeline.mem_restRefs_of main_v92 (by decide) (by decide))).trans (out1_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Proof.Bridge

end
-- ==== Proof.lean ====
/-
  The certificate of the gather-by-one-hot kernel against its gather reference, over the extended reals.

  The kernel streams eight images' heatmaps per grid point and selects, per keypoint and person, the heatmap entry at the
  clamped ground-truth row and column by a 0/1 row selector multiplied into the heatmaps and a 0/1 lane selector summed
  over the lanes; the reference gathers the same entries. Everything after that (the persons' masked means and
  variances, the pairwise hinge sums) is the same host code in both programs. The frames of the two kernel programs are
  the pipeline's frame run around the one region; the reference's frame is its run with the results dropped; no
  operation of the kernel was rewritten for the ideal reading, so `preserves` is trivial.
-/
import proofs.«159086_j30863634989288_1_alg».proof.Defs
import proofs.«159086_j30863634989288_1_alg».proof.Proof.Gen.Kernel
import proofs.«159086_j30863634989288_1_alg».proof.Proof.Gen.KernelIdeal
import proofs.«159086_j30863634989288_1_alg».proof.Proof.Gen.ReferenceIdeal
import proofs.«159086_j30863634989288_1_alg».proof.Proof.Gen.Pre_finite_inputs
import proofs.«159086_j30863634989288_1_alg».proof.Proof.FrameBodyBits
import proofs.«159086_j30863634989288_1_alg».proof.Proof.FrameBodyIdeal
import proofs.«159086_j30863634989288_1_alg».proof.Proof.RefRun
import proofs.«159086_j30863634989288_1_alg».proof.Proof.RefValue
import proofs.«159086_j30863634989288_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end at the reference's `within` and `across` of the gathered values and the mask of arguments that agree. -/
theorem algebraic : Cert.algebraic_KernelIdeal_ReferenceIdeal := by
  intro m ρ m' ρ' _ hagree
  refine ⟨_, _, Cert.Proof.Bridge.kernel_run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.RefValue.res0_eq, (hagree c).1, (hagree c).2]
  · rw [Cert.ReferenceIdeal.RefValue.res1_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
